-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x24 : Shape := ⟨4, ![16, 256, 256, 24]⟩
abbrev S_ : Shape := ⟨0, ![]⟩

class Facts : Prop where
  bcast_S_S16x256x256x24 : S_.BroadcastsInDim S16x256x256x24 (![] : Fin 0 → Fin S16x256x256x24.rank)
  reducesTo_S16x256x256x24_S_d0_1_2_3 : S16x256x256x24.ReducesTo [0, 1, 2, 3] S_
  h_S_ : 0 < S_.numel

variable [Facts]

def fn {F : FTy → Type} [FloatOps F] (main_arg0 : FVec F S16x256x256x24 .f32) (main_arg1 : FVec F S16x256x256x24 .f32) (main_arg2 : IVec S16x256x256x24 32) : IVec S_ 1 :=
  let main_v0 : FVec F S16x256x256x24 .f32 := Host.absf main_arg0
  let main_cst : FVec F S_ .f32 := constant S_ .f32 0x7F800000#32
  let main_v1 : FVec F S16x256x256x24 .f32 := broadcastInDim S16x256x256x24 ![] bcast_S_S16x256x256x24 main_cst
  let main_v2 : IVec S16x256x256x24 1 := cmpf .olt main_v0 main_v1
  let main_c : IVec S_ 1 := constantI S_ 1 1#1
  let main_v3 : IVec S_ 1 := (fun x v => Host.reduce IntOp.andi x v reducesTo_S16x256x256x24_S_d0_1_2_3 h_S_) main_v2 main_c
  let main_v4 : FVec F S16x256x256x24 .f32 := Host.absf main_arg1
  let main_cst_0 : FVec F S_ .f32 := constant S_ .f32 0x7F800000#32
  let main_v5 : FVec F S16x256x256x24 .f32 := broadcastInDim S16x256x256x24 ![] bcast_S_S16x256x256x24 main_cst_0
  let main_v6 : IVec S16x256x256x24 1 := cmpf .olt main_v4 main_v5
  let main_c_1 : IVec S_ 1 := constantI S_ 1 1#1
  let main_v7 : IVec S_ 1 := (fun x v => Host.reduce IntOp.andi x v reducesTo_S16x256x256x24_S_d0_1_2_3 h_S_) main_v6 main_c_1
  let main_v8 : IVec S_ 1 := andi main_v3 main_v7
  main_v8
-- ==== Kernel.lean ====
abbrev S16x256x256x24 : Shape := ⟨4, ![16, 256, 256, 24]⟩
abbrev S16x256x6144 : Shape := ⟨3, ![16, 256, 6144]⟩
abbrev S2x1x128 : Shape := ⟨3, ![2, 1, 128]⟩
abbrev S1x256x6144 : Shape := ⟨3, ![1, 256, 6144]⟩
abbrev S1x1x128 : Shape := ⟨3, ![1, 1, 128]⟩
abbrev S256x6144 : Shape := ⟨2, ![256, 6144]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 16
  | .vmem => 9
  | .smem => 0
  | _ => 0

abbrev bufTy : (tb : Table) → Fin (tcTables nBuf tb) → BufTy
  | .hbm, ⟨0, _⟩ => ⟨S16x256x256x24, .f32⟩
  | .hbm, ⟨1, _⟩ => ⟨S16x256x256x24, .f32⟩
  | .hbm, ⟨2, _⟩ => ⟨S16x256x256x24, .i32⟩
  | .hbm, ⟨3, _⟩ => ⟨S16x256x6144, .f32⟩
  | .hbm, ⟨4, _⟩ => ⟨S16x256x6144, .f32⟩
  | .hbm, ⟨5, _⟩ => ⟨S16x256x6144, .i32⟩
  | .hbm, ⟨6, _⟩ => ⟨S2x1x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x256x6144, .f32⟩
  | .local _ .vmem, ⟨1, _⟩ => ⟨S1x256x6144, .f32⟩
  | .local _ .vmem, ⟨2, _⟩ => ⟨S1x256x6144, .f32⟩
  | .local _ .vmem, ⟨3, _⟩ => ⟨S1x256x6144, .f32⟩
  | .local _ .vmem, ⟨4, _⟩ => ⟨S1x256x6144, .i32⟩
  | .local _ .vmem, ⟨5, _⟩ => ⟨S1x256x6144, .i32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | _, _ => ⟨S16x256x256x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v118 : BitVec 1 := Scalar.cmpi .eq arg1 c7_i32
  let v119 : BitVec 32 := Scalar.extui v118
  let c0_i32_47 : BitVec 32 := 0#32
  let v120 : BitVec 1 := Scalar.cmpi .ne v119 c0_i32_47
  v120

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x6144 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x256x256x24_S16x256x6144 : S16x256x256x24.ShapeCasts S16x256x6144
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S1x256x6144_S1x256x6144_0_0_0 : ∀ a, (![0, 0, 0] : Fin 3 → Nat) a + S1x256x6144.size a ≤ S1x256x6144.size a
  h_S1x256x6144 : 0 < S1x256x6144.numel
  shapeCasts_S1x256x6144_S256x6144 : S1x256x6144.ShapeCasts S256x6144
  natLt_1_32 : 1 < 32
  rotates_S256x6144_d1 : S256x6144.Rotates 1 none
  iota_S256x6144_d1_w32 : S256x6144.Iotas .tc 32 [1]
  rotates_S256x6144_d0 : S256x6144.Rotates 0 none
  iota_S256x6144_d0_w32 : S256x6144.Iotas .tc 32 [0]
  shapeCasts_S256x6144_S1x256x6144 : S256x6144.ShapeCasts S1x256x6144
  reduces_S1x256x6144_S1 : S1x256x6144.Reduces [1, 2] S1
  shapeCasts_S1_S1x1x1 : S1.ShapeCasts S1x1x1
  inpos_S1x1x1_p0_0_0 : ∀ a, (![0, 0, 0] : Fin 3 → Nat) a < S1x1x1.size a
  iota_S1x1x128_d2_w32 : S1x1x128.Iotas .tc 32 [2]
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  slices_S2x1x128_S2x1x1_0_0_1 : S2x1x128.Slices ![0, 0, 1] S2x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x6144.size a ≤ S16x256x6144.size a
  hwx0_0 : ∀ i : grid0.Coords, EltTy.bits .f32 = 32 ∨ (Rect.block (s := S16x256x6144) S1x256x6144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x6144.size a ≤ S16x256x6144.size a
  hwx0_1 : ∀ i : grid0.Coords, EltTy.bits .f32 = 32 ∨ (Rect.block (s := S16x256x6144) S1x256x6144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x6144.size a ≤ S16x256x6144.size a
  hwx0_2 : ∀ i : grid0.Coords, EltTy.bits .i32 = 32 ∨ (Rect.block (s := S16x256x6144) S1x256x6144.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_v0) S1x256x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x6144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x6144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x256x256x24 : Shape := ⟨4, ![16, 256, 256, 24]⟩
abbrev S_ : Shape := ⟨0, ![]⟩
abbrev S16x256x255x24 : Shape := ⟨4, ![16, 256, 255, 24]⟩
abbrev S16x256x1x24 : Shape := ⟨4, ![16, 256, 1, 24]⟩
abbrev S16x255x256x24 : Shape := ⟨4, ![16, 255, 256, 24]⟩
abbrev S16x1x256x24 : Shape := ⟨4, ![16, 1, 256, 24]⟩

abbrev nBuf : Space → Nat
  | .hbm => 96
  | .vmem => 0
  | .smem => 0
  | _ => 0

abbrev bufTy : (tb : Table) → Fin (tcTables nBuf tb) → BufTy
  | .hbm, ⟨0, _⟩ => ⟨S16x256x256x24, .f32⟩
  | .hbm, ⟨1, _⟩ => ⟨S16x256x256x24, .f32⟩
  | .hbm, ⟨2, _⟩ => ⟨S16x256x256x24, .i32⟩
  | .hbm, ⟨3, _⟩ => ⟨S_, .f32⟩
  | .hbm, ⟨4, _⟩ => ⟨S16x256x256x24, .f32⟩
  | .hbm, ⟨5, _⟩ => ⟨S16x256x256x24, .i1⟩
  | .hbm, ⟨6, _⟩ => ⟨S16x256x256x24, .f32⟩
  | .hbm, ⟨7, _⟩ => ⟨S_, .i32⟩
  | .hbm, ⟨8, _⟩ => ⟨S16x256x256x24, .i32⟩
  | .hbm, ⟨9, _⟩ => ⟨S16x256x256x24, .i1⟩
  | .hbm, ⟨10, _⟩ => ⟨S16x256x256x24, .f32⟩
  | .hbm, ⟨11, _⟩ => ⟨S_, .f32⟩
  | .hbm, ⟨12, _⟩ => ⟨S16x256x256x24, .f32⟩
  | .hbm, ⟨13, _⟩ => ⟨S16x256x256x24, .i1⟩
  | .hbm, ⟨14, _⟩ => ⟨S_, .f32⟩
  | .hbm, ⟨15, _⟩ => ⟨S16x256x256x24, .f32⟩
  | .hbm, ⟨16, _⟩ => ⟨S16x256x256x24, .f32⟩
  | .hbm, ⟨17, _⟩ => ⟨S16x256x256x24, .f32⟩
  | .hbm, ⟨18, _⟩ => ⟨S_, .f32⟩
  | .hbm, ⟨19, _⟩ => ⟨S16x256x256x24, .f32⟩
  | .hbm, ⟨20, _⟩ => ⟨S_, .f32⟩
  | .hbm, ⟨21, _⟩ => ⟨S16x256x256x24, .f32⟩
  | .hbm, ⟨22, _⟩ => ⟨S16x256x255x24, .f32⟩
  | .hbm, ⟨23, _⟩ => ⟨S16x256x1x24, .f32⟩
  | .hbm, ⟨24, _⟩ => ⟨S_, .f32⟩
  | .hbm, ⟨25, _⟩ => ⟨S16x256x1x24, .f32⟩
  | .hbm, ⟨26, _⟩ => ⟨S16x256x256x24, .f32⟩
  | .hbm, ⟨27, _⟩ => ⟨S16x256x256x24, .f32⟩
  | .hbm, ⟨28, _⟩ => ⟨S16x256x255x24, .f32⟩
  | .hbm, ⟨29, _⟩ => ⟨S16x256x1x24, .f32⟩
  | .hbm, ⟨30, _⟩ => ⟨S_, .f32⟩
  | .hbm, ⟨31, _⟩ => ⟨S16x256x1x24, .f32⟩
  | .hbm, ⟨32, _⟩ => ⟨S16x256x256x24, .f32⟩
  | .hbm, ⟨33, _⟩ => ⟨S16x256x256x24, .f32⟩
  | .hbm, ⟨34, _⟩ => ⟨S16x256x255x24, .f32⟩
  | .hbm, ⟨35, _⟩ => ⟨S16x256x1x24, .f32⟩
  | .hbm, ⟨36, _⟩ => ⟨S_, .f32⟩
  | .hbm, ⟨37, _⟩ => ⟨S16x256x1x24, .f32⟩
  | .hbm, ⟨38, _⟩ => ⟨S16x256x256x24, .f32⟩
  | .hbm, ⟨39, _⟩ => ⟨S16x256x256x24, .f32⟩
  | .hbm, ⟨40, _⟩ => ⟨S16x256x255x24, .f32⟩
  | .hbm, ⟨41, _⟩ => ⟨S16x256x1x24, .f32⟩
  | .hbm, ⟨42, _⟩ => ⟨S_, .f32⟩
  | .hbm, ⟨43, _⟩ => ⟨S16x256x1x24, .f32⟩
  | .hbm, ⟨44, _⟩ => ⟨S16x256x256x24, .f32⟩
  | .hbm, ⟨45, _⟩ => ⟨S16x256x256x24, .f32⟩
  | .hbm, ⟨46, _⟩ => ⟨S16x255x256x24, .f32⟩
  | .hbm, ⟨47, _⟩ => ⟨S16x1x256x24, .f32⟩
  | .hbm, ⟨48, _⟩ => ⟨S_, .f32⟩
  | .hbm, ⟨49, _⟩ => ⟨S16x1x256x24, .f32⟩
  | .hbm, ⟨50, _⟩ => ⟨S16x256x256x24, .f32⟩
  | .hbm, ⟨51, _⟩ => ⟨S16x256x256x24, .f32⟩
  | .hbm, ⟨52, _⟩ => ⟨S16x255x256x24, .f32⟩
  | .hbm, ⟨53, _⟩ => ⟨S16x1x256x24, .f32⟩
  | .hbm, ⟨54, _⟩ => ⟨S_, .f32⟩
  | .hbm, ⟨55, _⟩ => ⟨S16x1x256x24, .f32⟩
  | .hbm, ⟨56, _⟩ => ⟨S16x256x256x24, .f32⟩
  | .hbm, ⟨57, _⟩ => ⟨S16x256x256x24, .f32⟩
  | .hbm, ⟨58, _⟩ => ⟨S16x255x256x24, .f32⟩
  | .hbm, ⟨59, _⟩ => ⟨S16x1x256x24, .f32⟩
  | .hbm, ⟨60, _⟩ => ⟨S_, .f32⟩
  | .hbm, ⟨61, _⟩ => ⟨S16x1x256x24, .f32⟩
  | .hbm, ⟨62, _⟩ => ⟨S16x256x256x24, .f32⟩
  | .hbm, ⟨63, _⟩ => ⟨S16x256x256x24, .f32⟩
  | .hbm, ⟨64, _⟩ => ⟨S16x255x256x24, .f32⟩
  | .hbm, ⟨65, _⟩ => ⟨S16x1x256x24, .f32⟩
  | .hbm, ⟨66, _⟩ => ⟨S_, .f32⟩
  | .hbm, ⟨67, _⟩ => ⟨S16x1x256x24, .f32⟩
  | .hbm, ⟨68, _⟩ => ⟨S16x256x256x24, .f32⟩
  | .hbm, ⟨69, _⟩ => ⟨S16x256x256x24, .f32⟩
  | .hbm, ⟨70, _⟩ => ⟨S16x256x256x24, .f32⟩
  | .hbm, ⟨71, _⟩ => ⟨S_, .f32⟩
  | .hbm, ⟨72, _⟩ => ⟨S16x256x256x24, .f32⟩
  | .hbm, ⟨73, _⟩ => ⟨S16x256x256x24, .f32⟩
  | .hbm, ⟨74, _⟩ => ⟨S16x256x256x24, .f32⟩
  | .hbm, ⟨75, _⟩ => ⟨S16x256x256x24, .f32⟩
  | .hbm, ⟨76, _⟩ => ⟨S_, .f32⟩
  | .hbm, ⟨77, _⟩ => ⟨S16x256x256x24, .f32⟩
  | .hbm, ⟨78, _⟩ => ⟨S16x256x256x24, .f32⟩
  | .hbm, ⟨79, _⟩ => ⟨S16x256x256x24, .f32⟩
  | .hbm, ⟨80, _⟩ => ⟨S_, .f32⟩
  | .hbm, ⟨81, _⟩ => ⟨S16x256x256x24, .f32⟩
  | .hbm, ⟨82, _⟩ => ⟨S16x256x256x24, .f32⟩
  | .hbm, ⟨83, _⟩ => ⟨S16x256x256x24, .f32⟩
  | .hbm, ⟨84, _⟩ => ⟨S16x256x256x24, .f32⟩
  | .hbm, ⟨85, _⟩ => ⟨S16x256x256x24, .f32⟩
  | .hbm, ⟨86, _⟩ => ⟨S16x256x256x24, .f32⟩
  | .hbm, ⟨87, _⟩ => ⟨S16x256x256x24, .f32⟩
  | .hbm, ⟨88, _⟩ => ⟨S16x256x256x24, .f32⟩
  | .hbm, ⟨89, _⟩ => ⟨S16x256x256x24, .f32⟩
  | .hbm, ⟨90, _⟩ => ⟨S_, .f32⟩
  | .hbm, ⟨91, _⟩ => ⟨S_, .f32⟩
  | .hbm, ⟨92, _⟩ => ⟨S16x256x256x24, .f32⟩
  | .hbm, ⟨93, _⟩ => ⟨S_, .f32⟩
  | .hbm, ⟨94, _⟩ => ⟨S_, .f32⟩
  | .hbm, ⟨95, _⟩ => ⟨S_, .f32⟩
  | _, _ => ⟨S16x256x256x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_cst_16 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]

class Facts₀ : Prop where
  bcast_S_S16x256x256x24 : S_.BroadcastsInDim S16x256x256x24 (![] : Fin 0 → Fin S16x256x256x24.rank)
  slices_S16x256x256x24_S16x256x255x24_0_0_1_0 : S16x256x256x24.Slices ![0, 0, 1, 0] S16x256x255x24
  slices_S16x256x256x24_S16x256x1x24_0_0_0_0 : S16x256x256x24.Slices ![0, 0, 0, 0] S16x256x1x24
  bcast_S_S16x256x1x24 : S_.BroadcastsInDim S16x256x1x24 (![] : Fin 0 → Fin S16x256x1x24.rank)
  concatenates_S16x256x255x24_S16x256x1x24_S16x256x256x24_d2 : Shape.Concatenates [S16x256x255x24, S16x256x1x24] S16x256x256x24 2
  slices_S16x256x256x24_S16x256x255x24_0_0_0_0 : S16x256x256x24.Slices ![0, 0, 0, 0] S16x256x255x24
  concatenates_S16x256x1x24_S16x256x255x24_S16x256x256x24_d2 : Shape.Concatenates [S16x256x1x24, S16x256x255x24] S16x256x256x24 2
  slices_S16x256x256x24_S16x255x256x24_0_1_0_0 : S16x256x256x24.Slices ![0, 1, 0, 0] S16x255x256x24
  slices_S16x256x256x24_S16x1x256x24_0_0_0_0 : S16x256x256x24.Slices ![0, 0, 0, 0] S16x1x256x24
  bcast_S_S16x1x256x24 : S_.BroadcastsInDim S16x1x256x24 (![] : Fin 0 → Fin S16x1x256x24.rank)
  concatenates_S16x255x256x24_S16x1x256x24_S16x256x256x24_d1 : Shape.Concatenates [S16x255x256x24, S16x1x256x24] S16x256x256x24 1
  slices_S16x256x256x24_S16x255x256x24_0_0_0_0 : S16x256x256x24.Slices ![0, 0, 0, 0] S16x255x256x24
  concatenates_S16x1x256x24_S16x255x256x24_S16x256x256x24_d1 : Shape.Concatenates [S16x1x256x24, S16x255x256x24] S16x256x256x24 1
  reducesTo_S16x256x256x24_S_d0_1_2_3 : S16x256x256x24.ReducesTo [0, 1, 2, 3] S_
  h_S_ : 0 < S_.numel

variable [Facts₀]

class Facts : Prop extends Facts₀ where

variable [Facts]
-- ==== Proof.Spec.lean ====
/-
  The value both programs compute, stated once over the argument arrays, with no program in sight.

  Inputs: logits `X`, labels `T` (extended reals) and an integer mask `Mk`, each indexed by (batch, row, column, label)
  of extents 16 × 256 × 256 × 24.  Write m = [Mk = 1] and p = [T = 1] (as 0/1 values).  A cell's smoothed label is
    b = (T − 1/10 if T = 1 else T) + (1/40) · (add · m + p · (4 − cnt)),
  where cnt is the sum of m and add the sum of p over the four neighbours of the cell in the (row, column) plane, a
  neighbour outside the plane counting zero.  The cell's weight is
    (max X 0 − X · b + log1p (exp (−|X|))) · m,
  and the result is (Σ weight) / (Σ m) over all cells.

  The same cell is also addressed inside one batch as (row, flat column) with flat column = 24 · column + label, extent
  6144: a column step is a step of 24 in the flat column.  `WtB` states the weight in those coordinates over one batch's
  three blocks, `unflat` is the change of coordinates, and `numB` / `denB` are one batch's two sums.
-/
import Idealize.ShloMosaic.PureOps.Ideal
import Idealize.ShloMosaic.Lib.ValueIdx

noncomputable section

open scoped BigOperators

namespace Cert.Spec

open Idealize.ShloMosaic Idealize.ShloMosaic.ValueIdx

/-- The arrays' shape (batch, row, column, label). -/
abbrev S4 : Shape := ⟨4, ![16, 256, 256, 24]⟩
/-- One batch as a block (1, row, flat column). -/
abbrev S3 : Shape := ⟨3, ![1, 256, 6144]⟩

/-- The float literals of the formula, as the extended reals their words denote. -/
abbrev one : Ideal .f32 := FloatOps.ofBits (F := Ideal) .f32 0x3F800000#32
abbrev tenth : Ideal .f32 := FloatOps.ofBits (F := Ideal) .f32 0x3DCCCCCD#32
abbrev four : Ideal .f32 := FloatOps.ofBits (F := Ideal) .f32 0x40800000#32
abbrev fortieth : Ideal .f32 := FloatOps.ofBits (F := Ideal) .f32 0x3CCCCCCD#32
abbrev zero : Ideal .f32 := FloatOps.ofBits (F := Ideal) .f32 0x00000000#32

/-- m = [mask word = 1], as 0 or 1. -/
def mval (w : BitVec 32) : Ideal .f32 := FloatOps.uitofp (F := Ideal) .f32 (IntOp.cmpi .eq w 1#32)
/-- p = [label = 1], as 0 or 1. -/
def pval (t : Ideal .f32) : Ideal .f32 := FloatOps.uitofp (F := Ideal) .f32 (FloatOps.cmpf .oeq t one)

/-- One cell's weight from its logit, its label, its m and p, and the neighbour sums of m and of p. -/
def W (x t m p cnt add : Ideal .f32) : Ideal .f32 :=
  FloatOps.mulf
    (FloatOps.addf
      (FloatOps.subf (FloatOps.maximumf x zero)
        (FloatOps.mulf x
          (FloatOps.addf (Scalar.select (FloatOps.cmpf .oeq t one) (FloatOps.subf t tenth) t)
            (FloatOps.mulf fortieth (FloatOps.addf (FloatOps.mulf add m) (FloatOps.mulf p (FloatOps.subf four cnt)))))))
      (FloatOps.log1p (FloatOps.exp (FloatOps.negf (FloatOps.absf x)))))
    m

/-! ## In (batch, row, column, label) coordinates -/

section Cells
variable (A : Fin 16 → Fin 256 → Fin 256 → Fin 24 → EReal)

/-- The neighbour one column on, zero past the last column. -/
def colNext (b : Fin 16) (r : Fin 256) (j : Fin 256) (l : Fin 24) : EReal :=
  if h : j.val + 1 < 256 then A b r ⟨j.val + 1, h⟩ l else 0
/-- The neighbour one column back, zero before the first column. -/
def colPrev (b : Fin 16) (r : Fin 256) (j : Fin 256) (l : Fin 24) : EReal :=
  if h : 1 ≤ j.val then A b r ⟨j.val - 1, by have := j.isLt; omega⟩ l else 0
/-- The neighbour one row on, zero past the last row. -/
def rowNext (b : Fin 16) (r : Fin 256) (j : Fin 256) (l : Fin 24) : EReal :=
  if h : r.val + 1 < 256 then A b ⟨r.val + 1, h⟩ j l else 0
/-- The neighbour one row back, zero before the first row. -/
def rowPrev (b : Fin 16) (r : Fin 256) (j : Fin 256) (l : Fin 24) : EReal :=
  if h : 1 ≤ r.val then A b ⟨r.val - 1, by have := r.isLt; omega⟩ j l else 0
/-- The sum over the four neighbours. -/
def nbSum (b : Fin 16) (r : Fin 256) (j : Fin 256) (l : Fin 24) : EReal :=
  ((colNext A b r j l + colPrev A b r j l) + rowNext A b r j l) + rowPrev A b r j l

end Cells

variable (X T : S4.Idx → EReal) (Mk : S4.Idx → BitVec 32)

/-- m at a cell. -/
def Mv (b : Fin 16) (r : Fin 256) (j : Fin 256) (l : Fin 24) : EReal := mval (Mk (ix4 b r j l))
/-- p at a cell. -/
def Pv (b : Fin 16) (r : Fin 256) (j : Fin 256) (l : Fin 24) : EReal := pval (T (ix4 b r j l))
/-- The weight of a cell. -/
def Wt (b : Fin 16) (r : Fin 256) (j : Fin 256) (l : Fin 24) : EReal :=
  W (X (ix4 b r j l)) (T (ix4 b r j l)) (Mv Mk b r j l) (Pv T b r j l) (nbSum (Mv Mk) b r j l) (nbSum (Pv T) b r j l)

/-- The weight and m as functions of an index of the arrays. -/
def WtI (i : S4.Idx) : EReal := Wt X T Mk (i 0) (i 1) (i 2) (i 3)
def MvI (i : S4.Idx) : EReal := Mv Mk (i 0) (i 1) (i 2) (i 3)

/-- The two sums and the result. -/
def numS : EReal := ∑ i : S4.Idx, WtI X T Mk i
def denS : EReal := ∑ i : S4.Idx, MvI Mk i
def result : Ideal .f32 := FloatOps.hostDivf (F := Ideal) (φ := .f32) (numS X T Mk) (denS Mk)

/-! ## In (row, flat column) coordinates, one batch at a time -/

section Flat
variable (A : Fin 256 → Fin 6144 → EReal)

/-- One column on is 24 flat columns on. -/
def fColNext (r : Fin 256) (c : Fin 6144) : EReal :=
  if h : c.val + 24 < 6144 then A r ⟨c.val + 24, h⟩ else 0
/-- One column back is 24 flat columns back. -/
def fColPrev (r : Fin 256) (c : Fin 6144) : EReal :=
  if h : 24 ≤ c.val then A r ⟨c.val - 24, by have := c.isLt; omega⟩ else 0
def fRowNext (r : Fin 256) (c : Fin 6144) : EReal :=
  if h : r.val + 1 < 256 then A ⟨r.val + 1, h⟩ c else 0
def fRowPrev (r : Fin 256) (c : Fin 6144) : EReal :=
  if h : 1 ≤ r.val then A ⟨r.val - 1, by have := r.isLt; omega⟩ c else 0
def fnbSum (r : Fin 256) (c : Fin 6144) : EReal :=
  ((fColNext A r c + fColPrev A r c) + fRowNext A r c) + fRowPrev A r c

end Flat

/-- The weight of the cell (row r, flat column c) of one batch, from that batch's three blocks. -/
def WtB (x t : S3.Idx → EReal) (mk : S3.Idx → BitVec 32) (r : Fin 256) (c : Fin 6144) : EReal :=
  W (x (ix3 0 r c)) (t (ix3 0 r c)) (mval (mk (ix3 0 r c))) (pval (t (ix3 0 r c)))
    (fnbSum (fun r c => mval (mk (ix3 0 r c))) r c) (fnbSum (fun r c => pval (t (ix3 0 r c))) r c)

/-- One batch's two sums. -/
def numB (x t : S3.Idx → EReal) (mk : S3.Idx → BitVec 32) : EReal := ∑ y : S3.Idx, WtB x t mk (y 1) (y 2)
def denB (mk : S3.Idx → BitVec 32) : EReal := ∑ y : S3.Idx, mval (mk y)

/-- The cell of the arrays that batch `b`'s block index `y` addresses: flat column 24·j + l is (column j, label l). -/
def unflat (b : Fin 16) (y : S3.Idx) : S4.Idx :=
  ix4 b (y 1) (⟨(y 2).val / 24, by have h : (y 2).val < 6144 := (y 2).isLt; omega⟩ : Fin 256)
    (⟨(y 2).val % 24, Nat.mod_lt _ (by decide)⟩ : Fin 24)

/-- Batch `b` of an array, as a block. -/
def batchOf {α : Type} (Z : S4.Idx → α) (b : Fin 16) : S3.Idx → α := fun y => Z (unflat b y)

end Cert.Spec

end
-- ==== Proof.RefValue.lean ====
/-
  The reference computes the specification: read one operation at a time, its weight array is `WtI`, its mask array
  `MvI`, and its result the quotient of their sums.
-/
import proofs.«421200_j29025388986507_3_alg».proof.Proof.Spec
import proofs.«421200_j29025388986507_3_alg».proof.Proof.Gen.ReferenceIdeal.Read
import Idealize.ShloMosaic.Lib.Pipeline.Value
import Idealize.ShloMosaic.Lib.KernelVsHost

noncomputable section

open scoped BigOperators

namespace Cert.RefValue

open Idealize.ShloMosaic Idealize.ShloMosaic.TcCoe Idealize.ShloMosaic.ValueIdx
open Cert.ReferenceIdeal Cert.ReferenceIdeal.Read Cert.Spec

variable (X T : S16x256x256x24.Idx → EReal) (Mk : S16x256x256x24.Idx → BitVec 32)

/-! ## A slice joined with a zero slab is a zero-padded shift

Over an arbitrary array `A` of the full shape: the four joins of a slice of `A` (all but the first or the last column,
or row) with a slab of zeros, read at explicit coordinates, are the four neighbour readings of the specification. -/

section Shifts
variable (A : S16x256x256x24.Idx → EReal)

/-- Columns 1… of `A` followed by a zero column: the neighbour one column on. -/
theorem concat_colNext (Z : S16x256x1x24.Idx → EReal) (hZ : ∀ i, Z i = 0)
    (hs : S16x256x256x24.Slices ![0, 0, 1, 0] S16x256x255x24)
    (hc : Shape.Concatenates [S16x256x255x24, S16x256x1x24] S16x256x256x24 2)
    (b : Fin 16) (r : Fin 256) (j : Fin 256) (l : Fin 24) :
    concatenate S16x256x256x24 2
        [⟨S16x256x255x24, extractStridedSlice S16x256x255x24 ![0, 0, 1, 0] A hs⟩, ⟨S16x256x1x24, Z⟩] hc (ix4 b r j l)
      = colNext (fun b r j l => A (ix4 b r j l)) b r j l := by
  unfold colNext
  by_cases h : j.val + 1 < 256
  · rw [dif_pos h]
    have hj : j.val < 255 := by omega
    rw [concatenate_pair_apply_left 2 _ Z hc (ix4 b r j l) rfl (ix4 b r (⟨j.val, hj⟩ : Fin 255) l)
      (fun a => match a with | ⟨0, _⟩ => rfl | ⟨1, _⟩ => rfl | ⟨2, _⟩ => rfl | ⟨3, _⟩ => rfl)]
    exact extractStridedSlice_apply _ A hs _ _ (fun a => match a with
      | ⟨0, _⟩ => by show b.val = 0 + b.val; omega
      | ⟨1, _⟩ => by show r.val = 0 + r.val; omega
      | ⟨2, _⟩ => by show j.val + 1 = 1 + j.val; omega
      | ⟨3, _⟩ => by show l.val = 0 + l.val; omega)
  · rw [dif_neg h]
    rw [concatenate_pair_apply_right 2 _ Z hc (ix4 b r j l) rfl rfl (ix4 b r (⟨0, by omega⟩ : Fin 1) l)
      (fun a => match a with
        | ⟨0, _⟩ => fun _ => rfl | ⟨1, _⟩ => fun _ => rfl | ⟨2, _⟩ => fun hne => absurd rfl hne | ⟨3, _⟩ => fun _ => rfl)
      (by show 0 + 255 = j.val; have := j.isLt; omega)]
    exact hZ _

/-- A zero column followed by columns …254 of `A`: the neighbour one column back. -/
theorem concat_colPrev (Z : S16x256x1x24.Idx → EReal) (hZ : ∀ i, Z i = 0)
    (hs : S16x256x256x24.Slices ![0, 0, 0, 0] S16x256x255x24)
    (hc : Shape.Concatenates [S16x256x1x24, S16x256x255x24] S16x256x256x24 2)
    (b : Fin 16) (r : Fin 256) (j : Fin 256) (l : Fin 24) :
    concatenate S16x256x256x24 2
        [⟨S16x256x1x24, Z⟩, ⟨S16x256x255x24, extractStridedSlice S16x256x255x24 ![0, 0, 0, 0] A hs⟩] hc (ix4 b r j l)
      = colPrev (fun b r j l => A (ix4 b r j l)) b r j l := by
  unfold colPrev
  by_cases h : 1 ≤ j.val
  · rw [dif_pos h]
    have hj : j.val - 1 < 255 := by have := j.isLt; omega
    rw [concatenate_pair_apply_right 2 Z _ hc (ix4 b r j l) rfl rfl (ix4 b r (⟨j.val - 1, hj⟩ : Fin 255) l)
      (fun a => match a with
        | ⟨0, _⟩ => fun _ => rfl | ⟨1, _⟩ => fun _ => rfl | ⟨2, _⟩ => fun hne => absurd rfl hne | ⟨3, _⟩ => fun _ => rfl)
      (by show (j.val - 1) + 1 = j.val; omega)]
    exact extractStridedSlice_apply _ A hs _ _ (fun a => match a with
      | ⟨0, _⟩ => by show b.val = 0 + b.val; omega
      | ⟨1, _⟩ => by show r.val = 0 + r.val; omega
      | ⟨2, _⟩ => by show j.val - 1 = 0 + (j.val - 1); omega
      | ⟨3, _⟩ => by show l.val = 0 + l.val; omega)
  · rw [dif_neg h]
    have hj : j.val < 1 := by omega
    rw [concatenate_pair_apply_left 2 Z _ hc (ix4 b r j l) rfl (ix4 b r (⟨j.val, hj⟩ : Fin 1) l)
      (fun a => match a with | ⟨0, _⟩ => rfl | ⟨1, _⟩ => rfl | ⟨2, _⟩ => rfl | ⟨3, _⟩ => rfl)]
    exact hZ _

/-- Rows 1… of `A` followed by a zero row: the neighbour one row on. -/
theorem concat_rowNext (Z : S16x1x256x24.Idx → EReal) (hZ : ∀ i, Z i = 0)
    (hs : S16x256x256x24.Slices ![0, 1, 0, 0] S16x255x256x24)
    (hc : Shape.Concatenates [S16x255x256x24, S16x1x256x24] S16x256x256x24 1)
    (b : Fin 16) (r : Fin 256) (j : Fin 256) (l : Fin 24) :
    concatenate S16x256x256x24 1
        [⟨S16x255x256x24, extractStridedSlice S16x255x256x24 ![0, 1, 0, 0] A hs⟩, ⟨S16x1x256x24, Z⟩] hc (ix4 b r j l)
      = rowNext (fun b r j l => A (ix4 b r j l)) b r j l := by
  unfold rowNext
  by_cases h : r.val + 1 < 256
  · rw [dif_pos h]
    have hr : r.val < 255 := by omega
    rw [concatenate_pair_apply_left 1 _ Z hc (ix4 b r j l) rfl (ix4 b (⟨r.val, hr⟩ : Fin 255) j l)
      (fun a => match a with | ⟨0, _⟩ => rfl | ⟨1, _⟩ => rfl | ⟨2, _⟩ => rfl | ⟨3, _⟩ => rfl)]
    exact extractStridedSlice_apply _ A hs _ _ (fun a => match a with
      | ⟨0, _⟩ => by show b.val = 0 + b.val; omega
      | ⟨1, _⟩ => by show r.val + 1 = 1 + r.val; omega
      | ⟨2, _⟩ => by show j.val = 0 + j.val; omega
      | ⟨3, _⟩ => by show l.val = 0 + l.val; omega)
  · rw [dif_neg h]
    rw [concatenate_pair_apply_right 1 _ Z hc (ix4 b r j l) rfl rfl (ix4 b (⟨0, by omega⟩ : Fin 1) j l)
      (fun a => match a with
        | ⟨0, _⟩ => fun _ => rfl | ⟨1, _⟩ => fun hne => absurd rfl hne | ⟨2, _⟩ => fun _ => rfl | ⟨3, _⟩ => fun _ => rfl)
      (by show 0 + 255 = r.val; have := r.isLt; omega)]
    exact hZ _

/-- A zero row followed by rows …254 of `A`: the neighbour one row back. -/
theorem concat_rowPrev (Z : S16x1x256x24.Idx → EReal) (hZ : ∀ i, Z i = 0)
    (hs : S16x256x256x24.Slices ![0, 0, 0, 0] S16x255x256x24)
    (hc : Shape.Concatenates [S16x1x256x24, S16x255x256x24] S16x256x256x24 1)
    (b : Fin 16) (r : Fin 256) (j : Fin 256) (l : Fin 24) :
    concatenate S16x256x256x24 1
        [⟨S16x1x256x24, Z⟩, ⟨S16x255x256x24, extractStridedSlice S16x255x256x24 ![0, 0, 0, 0] A hs⟩] hc (ix4 b r j l)
      = rowPrev (fun b r j l => A (ix4 b r j l)) b r j l := by
  unfold rowPrev
  by_cases h : 1 ≤ r.val
  · rw [dif_pos h]
    have hr : r.val - 1 < 255 := by have := r.isLt; omega
    rw [concatenate_pair_apply_right 1 Z _ hc (ix4 b r j l) rfl rfl (ix4 b (⟨r.val - 1, hr⟩ : Fin 255) j l)
      (fun a => match a with
        | ⟨0, _⟩ => fun _ => rfl | ⟨1, _⟩ => fun hne => absurd rfl hne | ⟨2, _⟩ => fun _ => rfl | ⟨3, _⟩ => fun _ => rfl)
      (by show (r.val - 1) + 1 = r.val; omega)]
    exact extractStridedSlice_apply _ A hs _ _ (fun a => match a with
      | ⟨0, _⟩ => by show b.val = 0 + b.val; omega
      | ⟨1, _⟩ => by show r.val - 1 = 0 + (r.val - 1); omega
      | ⟨2, _⟩ => by show j.val = 0 + j.val; omega
      | ⟨3, _⟩ => by show l.val = 0 + l.val; omega)
  · rw [dif_neg h]
    have hr : r.val < 1 := by omega
    rw [concatenate_pair_apply_left 1 Z _ hc (ix4 b r j l) rfl (ix4 b (⟨r.val, hr⟩ : Fin 1) j l)
      (fun a => match a with | ⟨0, _⟩ => rfl | ⟨1, _⟩ => rfl | ⟨2, _⟩ => rfl | ⟨3, _⟩ => rfl)]
    exact hZ _

end Shifts

/-! ## The reference's arrays at explicit coordinates -/

/-- The slabs the reference joins on are zero. -/
theorem zero_word : FloatOps.ofBits (F := Ideal) .f32 0x00000000#32 = (0 : EReal) := Ideal.ofBits_zero_f32

/-- The mask array at explicit coordinates. -/
theorem mask_ix (b : Fin 16) (r : Fin 256) (j : Fin 256) (l : Fin 24) :
    val_main_v5 (F := Ideal) Mk (ix4 b r j l) = Mv Mk b r j l := by
  rw [val_main_v5_apply, val_main_v4_apply, val_main_v3_apply, val_main_c_apply]
  rfl

/-- The positives array at explicit coordinates. -/
theorem pos_ix (b : Fin 16) (r : Fin 256) (j : Fin 256) (l : Fin 24) :
    val_main_v2 (F := Ideal) T (ix4 b r j l) = Pv T b r j l := by
  rw [val_main_v2_apply, val_main_v1_apply, val_main_v0_apply, val_main_cst_apply]
  rfl

theorem mask_fun : (fun b r j l => val_main_v5 (F := Ideal) Mk (ix4 b r j l)) = Mv Mk := by
  funext b r j l; exact mask_ix Mk b r j l

theorem pos_fun : (fun b r j l => val_main_v2 (F := Ideal) T (ix4 b r j l)) = Pv T := by
  funext b r j l; exact pos_ix T b r j l

/-- The reference's count of valid neighbours is the neighbour sum of m. -/
theorem cnt_ix (b : Fin 16) (r : Fin 256) (j : Fin 256) (l : Fin 24) :
    val_main_v47 (F := Ideal) Mk (ix4 b r j l) = nbSum (Mv Mk) b r j l := by
  have h16 : val_main_v16 (F := Ideal) Mk (ix4 b r j l) = colNext (Mv Mk) b r j l := by
    rw [← mask_fun Mk]
    exact concat_colNext (val_main_v5 (F := Ideal) Mk) (val_main_v15 (F := Ideal))
      (fun i => by rw [val_main_v15_apply, val_main_cst_4_apply]; exact zero_word) _ _ b r j l
  have h26 : val_main_v26 (F := Ideal) Mk (ix4 b r j l) = colPrev (Mv Mk) b r j l := by
    rw [← mask_fun Mk]
    exact concat_colPrev (val_main_v5 (F := Ideal) Mk) (val_main_v25 (F := Ideal))
      (fun i => by rw [val_main_v25_apply, val_main_cst_6_apply]; exact zero_word) _ _ b r j l
  have h36 : val_main_v36 (F := Ideal) Mk (ix4 b r j l) = rowNext (Mv Mk) b r j l := by
    rw [← mask_fun Mk]
    exact concat_rowNext (val_main_v5 (F := Ideal) Mk) (val_main_v35 (F := Ideal))
      (fun i => by rw [val_main_v35_apply, val_main_cst_8_apply]; exact zero_word) _ _ b r j l
  have h46 : val_main_v46 (F := Ideal) Mk (ix4 b r j l) = rowPrev (Mv Mk) b r j l := by
    rw [← mask_fun Mk]
    exact concat_rowPrev (val_main_v5 (F := Ideal) Mk) (val_main_v45 (F := Ideal))
      (fun i => by rw [val_main_v45_apply, val_main_cst_10_apply]; exact zero_word) _ _ b r j l
  rw [val_main_v47_apply, val_main_v37_apply, val_main_v27_apply, val_main_v17_apply, val_main_v11_apply,
    val_main_cst_2_apply, h16, h26, h36, h46, zero_word]
  show ((0 + colNext (Mv Mk) b r j l + colPrev (Mv Mk) b r j l) + rowNext (Mv Mk) b r j l) + rowPrev (Mv Mk) b r j l = _
  rw [zero_add]
  rfl

/-- The reference's mass scattered in from the neighbours is the neighbour sum of p. -/
theorem add_ix (b : Fin 16) (r : Fin 256) (j : Fin 256) (l : Fin 24) :
    val_main_v52 (F := Ideal) T (ix4 b r j l) = nbSum (Pv T) b r j l := by
  have h21 : val_main_v21 (F := Ideal) T (ix4 b r j l) = colPrev (Pv T) b r j l := by
    rw [← pos_fun T]
    exact concat_colPrev (val_main_v2 (F := Ideal) T) (val_main_v20 (F := Ideal))
      (fun i => by rw [val_main_v20_apply, val_main_cst_5_apply]; exact zero_word) _ _ b r j l
  have h31 : val_main_v31 (F := Ideal) T (ix4 b r j l) = colNext (Pv T) b r j l := by
    rw [← pos_fun T]
    exact concat_colNext (val_main_v2 (F := Ideal) T) (val_main_v30 (F := Ideal))
      (fun i => by rw [val_main_v30_apply, val_main_cst_7_apply]; exact zero_word) _ _ b r j l
  have h41 : val_main_v41 (F := Ideal) T (ix4 b r j l) = rowPrev (Pv T) b r j l := by
    rw [← pos_fun T]
    exact concat_rowPrev (val_main_v2 (F := Ideal) T) (val_main_v40 (F := Ideal))
      (fun i => by rw [val_main_v40_apply, val_main_cst_9_apply]; exact zero_word) _ _ b r j l
  have h51 : val_main_v51 (F := Ideal) T (ix4 b r j l) = rowNext (Pv T) b r j l := by
    rw [← pos_fun T]
    exact concat_rowNext (val_main_v2 (F := Ideal) T) (val_main_v50 (F := Ideal))
      (fun i => by rw [val_main_v50_apply, val_main_cst_11_apply]; exact zero_word) _ _ b r j l
  rw [val_main_v52_apply, val_main_v42_apply, val_main_v32_apply, val_main_v22_apply, val_main_v12_apply,
    val_main_cst_3_apply, h21, h31, h41, h51, zero_word]
  show ((0 + colPrev (Pv T) b r j l + colNext (Pv T) b r j l) + rowPrev (Pv T) b r j l) + rowNext (Pv T) b r j l = _
  rw [zero_add, add_comm (colPrev (Pv T) b r j l), add_right_comm]
  rfl

/-- The weight array at explicit coordinates. -/
theorem weight_ix (b : Fin 16) (r : Fin 256) (j : Fin 256) (l : Fin 24) :
    val_main_v71 (F := Ideal) X T Mk (ix4 b r j l) = Wt X T Mk b r j l := by
  rw [val_main_v71_apply, val_main_v69_apply, val_main_v68_apply, val_main_v67_apply, val_main_v66_apply,
    val_main_v65_apply, val_main_v64_apply, val_main_v63_apply, val_main_v62_apply, val_main_v61_apply,
    val_main_cst_14_apply, val_main_v60_apply, val_main_v59_apply, val_main_v58_apply, val_main_cst_13_apply,
    val_main_v57_apply, val_main_v56_apply, val_main_v55_apply, val_main_v54_apply, val_main_cst_12_apply,
    val_main_v53_apply, val_main_v10_apply, val_main_v9_apply, val_main_v8_apply, val_main_cst_1_apply,
    val_main_v7_apply, val_main_v6_apply, val_main_cst_0_apply,
    cnt_ix Mk b r j l, add_ix T b r j l, mask_ix Mk b r j l, pos_ix T b r j l]
  rfl

/-- The reference's mask array at a cell is m there. -/
theorem mask_apply (i : S16x256x256x24.Idx) : val_main_v5 (F := Ideal) Mk i = MvI Mk i := by
  obtain ⟨b, r, j, l, rfl⟩ : ∃ (b : Fin 16) (r : Fin 256) (j : Fin 256) (l : Fin 24), i = ix4 b r j l :=
    ⟨i 0, i 1, i 2, i 3, eq_ix4 i⟩
  exact mask_ix Mk b r j l

/-- The reference's weight array at a cell is the weight there. -/
theorem weight_apply (i : S16x256x256x24.Idx) : val_main_v71 (F := Ideal) X T Mk i = WtI X T Mk i := by
  obtain ⟨b, r, j, l, rfl⟩ : ∃ (b : Fin 16) (r : Fin 256) (j : Fin 256) (l : Fin 24), i = ix4 b r j l :=
    ⟨i 0, i 1, i 2, i 3, eq_ix4 i⟩
  exact weight_ix X T Mk b r j l

/-- The reference's result is the specification's. -/
theorem result_eq : val_main_v73 (F := Ideal) X T Mk = fun _ => Cert.Spec.result X T Mk := by
  funext i
  rw [val_main_v73_apply, val_main_v72_apply, val_main_v70_apply, val_main_cst_16_apply, val_main_cst_15_apply,
    zero_word, zero_add, zero_add]
  unfold Cert.Spec.result numS denS
  rw [Finset.sum_congr rfl (fun i _ => weight_apply X T Mk i), Finset.sum_congr rfl (fun i _ => mask_apply Mk i)]

end Cert.RefValue

end
-- ==== Proof.KernelPoint.lean ====
/-
  One grid point of the kernel, as a value: from the point's three blocks and the accumulator it found, the body leaves
  the accumulator with the batch's numerator added in lane 0, the batch's denominator in lane 1, and zero elsewhere.
-/
import proofs.«421200_j29025388986507_3_alg».proof.Proof.Spec
import proofs.«421200_j29025388986507_3_alg».proof.Proof.Gen.KernelIdeal.Skeleton
import Idealize.ShloMosaic.Lib.Pipeline.Value
import Idealize.ShloMosaic.Lib.KernelVsHost
import Idealize.ShloMosaic.Lib.Affine
import Idealize.ShloMosaic.Lib.WordArith
import Idealize.ShloMosaic.PureOps.Ideal.Laws

noncomputable section

open scoped BigOperators

namespace Cert.KernelPoint

open Idealize.ShloMosaic Idealize.ShloMosaic.TcCoe Idealize.ShloMosaic.ValueIdx
open Cert.KernelIdeal Cert.KernelIdeal.Gen Cert.Spec

/-! ## The four zero-padded shifts of a (row, flat column) array -/

/-- The f32 word of zero denotes the extended real zero. -/
theorem zeroWord_eq : (Scalar.ofBits (F := Ideal) .f32 0x00000000#32 : Ideal .f32) = (0 : EReal) :=
  Ideal.ofBits_zero_f32

/-- A coordinate of the block read back from its 32-bit word as a signed integer is itself. -/
theorem toInt_coord (n : Nat) (h : n < 6144) : (BitVec.ofNat 32 n).toInt = (n : Int) :=
  WordArith.toInt_ofNat_small n (by omega)

/-- Signed "less than" on the words of two small naturals is "less than" on the naturals. -/
theorem slt_coord (n k : Nat) (hn : n < 6144) (hk : k < 6144) :
    IntOp.cmpi .slt (BitVec.ofNat 32 n) (BitVec.ofNat 32 k) = 1#1 ↔ n < k := by
  rw [IntOp.cmpi_slt, toInt_coord _ hn, toInt_coord _ hk]; omega

/-- Signed "at least" on the words of two small naturals is "at least" on the naturals. -/
theorem sge_coord (n k : Nat) (hn : n < 6144) (hk : k < 6144) :
    IntOp.cmpi .sge (BitVec.ofNat 32 n) (BitVec.ofNat 32 k) = 1#1 ↔ k ≤ n := by
  rw [IntOp.cmpi_sge, toInt_coord _ hn, toInt_coord _ hk]; omega

/-- A select on a bit that is one exactly when `p` holds is the conditional on `p`. -/
theorem select_of_iff {α : Type} {b : BitVec 1} {p : Prop} [Decidable p] (hb : b = 1#1 ↔ p) (x y : α) :
    Scalar.select b x y = if p then x else y := by
  by_cases hp : p
  · rw [if_pos hp, hb.mpr hp, select_one]
  · rw [if_neg hp, eq_zero_of_ne_one (fun h => hp (hb.mp h)), select_zero]

section Shifts
variable (A : FVec Ideal S256x6144 .f32)

/-- Rotating the flat column by 6120 of 6144 reads 24 flat columns on; zero on the last 24 flat columns. -/
theorem colNext_apply (r : Fin 256) (c : Fin 6144) :
    select (cmpi .slt (iota .tc S256x6144 32 [1] iota_S256x6144_d1_w32) (broadcast S256x6144 6120#32))
      (dynamicRotate 1 6120#32 none A rotates_S256x6144_d1)
      (broadcast S256x6144 (Scalar.ofBits (F := Ideal) .f32 0x00000000#32)) (ix2 r c)
    = fColNext (fun r c => A (ix2 r c)) r c := by
  show Scalar.select (IntOp.cmpi .slt (iota .tc S256x6144 32 [1] iota_S256x6144_d1_w32 (ix2 r c)) 6120#32)
      (dynamicRotate 1 6120#32 none A rotates_S256x6144_d1 (ix2 r c)) (Scalar.ofBits (F := Ideal) .f32 0x00000000#32) = _
  rw [iota_single_apply]
  show Scalar.select (IntOp.cmpi .slt (BitVec.ofNat 32 c.val) (BitVec.ofNat 32 6120)) _ _ = _
  have hc := c.isLt
  rw [select_of_iff (slt_coord c.val 6120 hc (by decide))]
  unfold fColNext
  by_cases h : c.val + 24 < 6144
  · rw [if_pos (by omega), dif_pos h]
    refine dynamicRotate_apply 1 6120#32 A _ (ix2 r c) (ix2 r ⟨c.val + 24, h⟩) (fun b => ?_)
    match b with
    | ⟨0, _⟩ => exact (if_neg (Fin.ne_of_val_ne (show (0 : Nat) ≠ 1 by decide))).symm
    | ⟨1, _⟩ =>
      rw [if_pos (Fin.ext (show (1 : Nat) = 1 from rfl))]
      show c.val + 24 = (c.val + 6144 - 6120 % 6144) % 6144
      omega
  · rw [if_neg (by omega), dif_neg h]
    exact zeroWord_eq

/-- Rotating the flat column by 24 reads 24 flat columns back; zero on the first 24 flat columns. -/
theorem colPrev_apply (r : Fin 256) (c : Fin 6144) :
    select (cmpi .sge (iota .tc S256x6144 32 [1] iota_S256x6144_d1_w32) (broadcast S256x6144 24#32))
      (dynamicRotate 1 24#32 none A rotates_S256x6144_d1)
      (broadcast S256x6144 (Scalar.ofBits (F := Ideal) .f32 0x00000000#32)) (ix2 r c)
    = fColPrev (fun r c => A (ix2 r c)) r c := by
  show Scalar.select (IntOp.cmpi .sge (iota .tc S256x6144 32 [1] iota_S256x6144_d1_w32 (ix2 r c)) 24#32)
      (dynamicRotate 1 24#32 none A rotates_S256x6144_d1 (ix2 r c)) (Scalar.ofBits (F := Ideal) .f32 0x00000000#32) = _
  rw [iota_single_apply]
  show Scalar.select (IntOp.cmpi .sge (BitVec.ofNat 32 c.val) (BitVec.ofNat 32 24)) _ _ = _
  have hc := c.isLt
  rw [select_of_iff (sge_coord c.val 24 hc (by decide))]
  unfold fColPrev
  by_cases h : 24 ≤ c.val
  · rw [if_pos h, dif_pos h]
    refine dynamicRotate_apply 1 24#32 A _ (ix2 r c) (ix2 r ⟨c.val - 24, by omega⟩) (fun b => ?_)
    match b with
    | ⟨0, _⟩ => exact (if_neg (Fin.ne_of_val_ne (show (0 : Nat) ≠ 1 by decide))).symm
    | ⟨1, _⟩ =>
      rw [if_pos (Fin.ext (show (1 : Nat) = 1 from rfl))]
      show c.val - 24 = (c.val + 6144 - 24 % 6144) % 6144
      omega
  · rw [if_neg h, dif_neg h]
    exact zeroWord_eq

/-- Rotating the rows by 255 of 256 reads one row on; zero on the last row. -/
theorem rowNext_apply (r : Fin 256) (c : Fin 6144) :
    select (cmpi .slt (iota .tc S256x6144 32 [0] iota_S256x6144_d0_w32) (broadcast S256x6144 255#32))
      (dynamicRotate 0 255#32 none A rotates_S256x6144_d0)
      (broadcast S256x6144 (Scalar.ofBits (F := Ideal) .f32 0x00000000#32)) (ix2 r c)
    = fRowNext (fun r c => A (ix2 r c)) r c := by
  show Scalar.select (IntOp.cmpi .slt (iota .tc S256x6144 32 [0] iota_S256x6144_d0_w32 (ix2 r c)) 255#32)
      (dynamicRotate 0 255#32 none A rotates_S256x6144_d0 (ix2 r c)) (Scalar.ofBits (F := Ideal) .f32 0x00000000#32) = _
  rw [iota_single_apply]
  show Scalar.select (IntOp.cmpi .slt (BitVec.ofNat 32 r.val) (BitVec.ofNat 32 255)) _ _ = _
  have hr := r.isLt
  rw [select_of_iff (slt_coord r.val 255 (by omega) (by decide))]
  unfold fRowNext
  by_cases h : r.val + 1 < 256
  · rw [if_pos (by omega), dif_pos h]
    refine dynamicRotate_apply 0 255#32 A _ (ix2 r c) (ix2 ⟨r.val + 1, h⟩ c) (fun b => ?_)
    match b with
    | ⟨0, _⟩ =>
      rw [if_pos (Fin.ext (show (0 : Nat) = 0 from rfl))]
      show r.val + 1 = (r.val + 256 - 255 % 256) % 256
      omega
    | ⟨1, _⟩ => exact (if_neg (Fin.ne_of_val_ne (show (1 : Nat) ≠ 0 by decide))).symm
  · rw [if_neg (by omega), dif_neg h]
    exact zeroWord_eq

/-- Rotating the rows by 1 reads one row back; zero on the first row. -/
theorem rowPrev_apply (r : Fin 256) (c : Fin 6144) :
    select (cmpi .sge (iota .tc S256x6144 32 [0] iota_S256x6144_d0_w32) (broadcast S256x6144 1#32))
      (dynamicRotate 0 1#32 none A rotates_S256x6144_d0)
      (broadcast S256x6144 (Scalar.ofBits (F := Ideal) .f32 0x00000000#32)) (ix2 r c)
    = fRowPrev (fun r c => A (ix2 r c)) r c := by
  show Scalar.select (IntOp.cmpi .sge (iota .tc S256x6144 32 [0] iota_S256x6144_d0_w32 (ix2 r c)) 1#32)
      (dynamicRotate 0 1#32 none A rotates_S256x6144_d0 (ix2 r c)) (Scalar.ofBits (F := Ideal) .f32 0x00000000#32) = _
  rw [iota_single_apply]
  show Scalar.select (IntOp.cmpi .sge (BitVec.ofNat 32 r.val) (BitVec.ofNat 32 1)) _ _ = _
  have hr := r.isLt
  rw [select_of_iff (sge_coord r.val 1 (by omega) (by decide))]
  unfold fRowPrev
  by_cases h : 1 ≤ r.val
  · rw [if_pos h, dif_pos h]
    refine dynamicRotate_apply 0 1#32 A _ (ix2 r c) (ix2 ⟨r.val - 1, by omega⟩ c) (fun b => ?_)
    match b with
    | ⟨0, _⟩ =>
      rw [if_pos (Fin.ext (show (0 : Nat) = 0 from rfl))]
      show r.val - 1 = (r.val + 256 - 1 % 256) % 256
      omega
    | ⟨1, _⟩ => exact (if_neg (Fin.ne_of_val_ne (show (1 : Nat) ≠ 0 by decide))).symm
  · rw [if_neg h, dif_neg h]
    exact zeroWord_eq

/-- The four shifts summed in the order next column, previous column, next row, previous row. -/
theorem nbSum_apply (r : Fin 256) (c : Fin 6144) :
    addf (addf (addf
      (select (cmpi .slt (iota .tc S256x6144 32 [1] iota_S256x6144_d1_w32) (broadcast S256x6144 6120#32))
        (dynamicRotate 1 6120#32 none A rotates_S256x6144_d1)
        (broadcast S256x6144 (Scalar.ofBits (F := Ideal) .f32 0x00000000#32)))
      (select (cmpi .sge (iota .tc S256x6144 32 [1] iota_S256x6144_d1_w32) (broadcast S256x6144 24#32))
        (dynamicRotate 1 24#32 none A rotates_S256x6144_d1)
        (broadcast S256x6144 (Scalar.ofBits (F := Ideal) .f32 0x00000000#32))))
      (select (cmpi .slt (iota .tc S256x6144 32 [0] iota_S256x6144_d0_w32) (broadcast S256x6144 255#32))
        (dynamicRotate 0 255#32 none A rotates_S256x6144_d0)
        (broadcast S256x6144 (Scalar.ofBits (F := Ideal) .f32 0x00000000#32))))
      (select (cmpi .sge (iota .tc S256x6144 32 [0] iota_S256x6144_d0_w32) (broadcast S256x6144 1#32))
        (dynamicRotate 0 1#32 none A rotates_S256x6144_d0)
        (broadcast S256x6144 (Scalar.ofBits (F := Ideal) .f32 0x00000000#32))) (ix2 r c)
    = fnbSum (fun r c => A (ix2 r c)) r c := by
  rw [addf_apply, addf_apply, addf_apply, colNext_apply, colPrev_apply, rowNext_apply, rowPrev_apply]
  rfl

end Shifts

/-! ## The unit axis of a block -/

/-- A (1, row, flat column) block viewed as (row, flat column) reads (0, r, c) at (r, c). -/
theorem dropUnit_apply {α : Type} (v : S1x256x6144.Idx → α) (r : Fin 256) (c : Fin 6144) :
    shapeCast S256x6144 v shapeCasts_S1x256x6144_S256x6144 (ix2 r c) = v (ix3 0 r c) := by
  rw [shapeCast_dropUnit_apply ![256, 6144] v]
  congr 1
  funext a
  match a with
  | ⟨0, _⟩ => rfl
  | ⟨1, _⟩ => rfl
  | ⟨2, _⟩ => rfl

/-- A (row, flat column) array viewed as a (1, row, flat column) block reads (y 1, y 2) at y. -/
theorem addUnit_apply {α : Type} (v : S256x6144.Idx → α) (y : S1x256x6144.Idx) :
    shapeCast S1x256x6144 v shapeCasts_S256x6144_S1x256x6144 y = v (ix2 (y 1) (y 2)) := by
  rw [shapeCast_addUnit_apply ![256, 6144] v]
  congr 1
  funext a
  match a with
  | ⟨0, _⟩ => rfl
  | ⟨1, _⟩ => rfl

/-- An index of a (1, row, flat column) block is (0, y 1, y 2). -/
theorem idx_eq (y : S1x256x6144.Idx) : ix3 (0 : Fin 1) (y 1) (y 2) = y := by
  funext a
  match a with
  | ⟨0, _⟩ =>
    refine Fin.ext ?_
    have h0 : (y 0).val < 1 := (y 0).isLt
    show 0 = (y 0).val
    omega
  | ⟨1, _⟩ => rfl
  | ⟨2, _⟩ => rfl

/-! ## m and p -/

section MP
variable (x t : Vec Ideal S1x256x6144 .f32) (mk : Vec Ideal S1x256x6144 .i32)

/-- The body's m at (r, c): the mask word's test against 1, as 0 or 1. -/
theorem m_apply (r : Fin 256) (c : Fin 6144) : k0_pay4 (F := Ideal) mk (ix2 r c) = mval (mk (ix3 0 r c)) := by
  show (sitofp (F := Ideal) .f32 (extui 32 (cmpi .eq (shapeCast S256x6144 mk shapeCasts_S1x256x6144_S256x6144)
    (broadcast S256x6144 1#32)) natLt_1_32)) (ix2 r c) = _
  rw [sitofp_extui_eq_uitofp]
  show FloatOps.uitofp (F := Ideal) .f32
    (IntOp.cmpi .eq (shapeCast S256x6144 mk shapeCasts_S1x256x6144_S256x6144 (ix2 r c)) 1#32) = _
  rw [dropUnit_apply]
  rfl

/-- The body's p at (r, c): the label's test against 1, as 0 or 1. -/
theorem p_apply (r : Fin 256) (c : Fin 6144) : k0_pay5 (F := Ideal) t (ix2 r c) = pval (t (ix3 0 r c)) := by
  show (sitofp (F := Ideal) .f32 (extui 32 (cmpf (F := Ideal) .oeq
    (shapeCast S256x6144 t shapeCasts_S1x256x6144_S256x6144 : FVec Ideal S256x6144 .f32)
    (broadcast S256x6144 (Scalar.ofBits (F := Ideal) .f32 0x3F800000#32))) natLt_1_32)) (ix2 r c) = _
  rw [sitofp_extui_eq_uitofp]
  show FloatOps.uitofp (F := Ideal) .f32
    (FloatOps.cmpf (F := Ideal) .oeq
      ((shapeCast S256x6144 t shapeCasts_S1x256x6144_S256x6144 : FVec Ideal S256x6144 .f32) (ix2 r c))
      (Scalar.ofBits (F := Ideal) .f32 0x3F800000#32)) = _
  rw [dropUnit_apply]
  rfl

/-- The body's logit at (r, c). -/
theorem x_apply (r : Fin 256) (c : Fin 6144) : k0_pay2 (F := Ideal) x (ix2 r c) = x (ix3 0 r c) :=
  dropUnit_apply x r c

/-- The body's smoothed-label base at (r, c): the label less a tenth where the label is 1. -/
theorem base_apply (r : Fin 256) (c : Fin 6144) :
    k0_pay6 (F := Ideal) t (ix2 r c)
      = Scalar.select (FloatOps.cmpf .oeq (t (ix3 0 r c)) one) (FloatOps.subf (t (ix3 0 r c)) tenth) (t (ix3 0 r c)) := by
  show Scalar.select
      (FloatOps.cmpf (F := Ideal) .oeq
        ((shapeCast S256x6144 t shapeCasts_S1x256x6144_S256x6144 : FVec Ideal S256x6144 .f32) (ix2 r c))
        (Scalar.ofBits (F := Ideal) .f32 0x3F800000#32))
      (FloatOps.subf (F := Ideal)
        ((shapeCast S256x6144 t shapeCasts_S1x256x6144_S256x6144 : FVec Ideal S256x6144 .f32) (ix2 r c))
        (Scalar.ofBits (F := Ideal) .f32 0x3DCCCCCD#32))
      ((shapeCast S256x6144 t shapeCasts_S1x256x6144_S256x6144 : FVec Ideal S256x6144 .f32) (ix2 r c)) = _
  rw [dropUnit_apply]

/-- The neighbour sum of m at (r, c). -/
theorem cnt_apply (r : Fin 256) (c : Fin 6144) :
    k0_pay8 (F := Ideal) (k0_pay4 mk) (k0_pay7 mk) 255#32 (ix2 r c) = fnbSum (fun r c => mval (mk (ix3 0 r c))) r c := by
  have hm : (fun (r : Fin 256) (c : Fin 6144) => k0_pay4 (F := Ideal) mk (ix2 r c)) = fun r c => mval (mk (ix3 0 r c)) :=
    funext fun r => funext fun c => m_apply mk r c
  rw [← hm]
  exact nbSum_apply (k0_pay4 mk) r c

/-- The neighbour sum of p, times m, at (r, c). -/
theorem addm_apply (r : Fin 256) (c : Fin 6144) :
    k0_pay9 (F := Ideal) (k0_pay4 mk) (k0_pay5 t) (ix2 r c)
      = FloatOps.mulf (fnbSum (fun r c => pval (t (ix3 0 r c))) r c) (mval (mk (ix3 0 r c))) := by
  have hp : (fun (r : Fin 256) (c : Fin 6144) => k0_pay5 (F := Ideal) t (ix2 r c)) = fun r c => pval (t (ix3 0 r c)) :=
    funext fun r => funext fun c => p_apply t r c
  rw [← hp, ← m_apply mk r c]
  exact congrArg (fun z => FloatOps.mulf z (k0_pay4 (F := Ideal) mk (ix2 r c))) (nbSum_apply (k0_pay5 t) r c)

end MP

/-! ## The weighted vector and the two lanes -/

section Split
variable {F : FTy → Type} [FloatOps F]

/-- The cell weights as a vector, from the body's vectors: the logit, m, p, the label's base, the neighbour sum of m, and
    the neighbour sum of p times m. -/
def wvec (v4 v12 v16 v21 v48 v76 : FVec F S256x6144 .f32) (cst_32 : F .f32) : FVec F S256x6144 .f32 :=
  mulf
    (addf
      (subf (maximumf v4 (broadcast S256x6144 (Scalar.ofBits .f32 0x00000000#32)))
        (mulf v4
          (addf v21
            (mulf (broadcast S256x6144 (Scalar.ofBits .f32 0x3CCCCCCD#32))
              (addf v76 (mulf v16 (subf (broadcast S256x6144 cst_32) v48)))))))
      (log1p (exp (subf (broadcast S256x6144 (Scalar.ofBits .f32 0x00000000#32)) (absf v4)))))
    v12

/-- The total of a (row, flat column) vector, summed through its block view and read out as a scalar. -/
def total (v : FVec F S256x6144 .f32) : F .f32 :=
  extractAt ![0, 0, 0]
    (shapeCast S1x1x1
      (multiReduction .add [1, 2] S1 (shapeCast S1x256x6144 v shapeCasts_S256x6144_S1x256x6144) 0x00000000#32
        reduces_S1x256x6144_S1 (.inl rfl) rfl)
      shapeCasts_S1_S1x1x1)
    inpos_S1x1x1_p0_0_0

/-- The stored vector from the weighted vector, m and the accumulator: the accumulator plus the first total in lane 0,
    the second in lane 1, zero in the other lanes. -/
def lanes (v94 v12 : FVec F S256x6144 .f32) (v113 : Vec F S1x1x128 .f32) : FVec F S1x1x128 .f32 :=
  shapeCast S1x1x128
    (addf v113
      (select (cmpi .eq (iota .tc S1x1x128 32 [2] iota_S1x1x128_d2_w32) (broadcast S1x1x128 0#32))
        (broadcast S1x1x128 (total v94))
        (select (cmpi .eq (iota .tc S1x1x128 32 [2] iota_S1x1x128_d2_w32) (broadcast S1x1x128 1#32))
          (broadcast S1x1x128 (total v12))
          (broadcast S1x1x128 (Scalar.ofBits .f32 0x00000000#32)))))
    shapeCasts_S1x1x128_S1x1x128

/-- The body's stored vector is the two lanes of the weighted vector and m. -/
theorem k0_pay10_eq (v4 v12 v16 v21 v48 v76 : FVec F S256x6144 .f32) (cst_32 : F .f32) (v113 : Vec F S1x1x128 .f32) :
    k0_pay10 v4 v12 v16 v21 v48 v76 cst_32 v113 = lanes (wvec v4 v12 v16 v21 v48 v76 cst_32) v12 v113 := rfl

end Split

/-- Equality of the words of two small naturals is equality of the naturals. -/
theorem eq_coord (n k : Nat) (hn : n < 6144) (hk : k < 6144) :
    IntOp.cmpi .eq (BitVec.ofNat 32 n) (BitVec.ofNat 32 k) = 1#1 ↔ n = k := by
  rw [IntOp.cmpi_eq]
  constructor
  · intro h
    have h' := congrArg BitVec.toInt h
    rw [toInt_coord _ hn, toInt_coord _ hk] at h'
    omega
  · intro h
    rw [h]

/-- The total of a vector is the sum over the block's indices of its entries. -/
theorem total_eq (v : FVec Ideal S256x6144 .f32) :
    total (F := Ideal) v = ∑ y : S1x256x6144.Idx, v (ix2 (y 1) (y 2)) := by
  have ht : ∀ b : Fin S1.rank, S1.size b = 1 := fun b => by
    match b with
    | ⟨0, _⟩ => rfl
  exact (Ideal.multiReduction_add_total
      (shapeCast S1x256x6144 v shapeCasts_S256x6144_S1x256x6144 : FVec Ideal S1x256x6144 .f32) 0x00000000#32
      reduces_S1x256x6144_S1 ht (.inl rfl) rfl _).trans
    (Finset.sum_congr rfl fun y _ => addUnit_apply v y)

/-- The two lanes read at lane l. -/
theorem lanes_apply (v94 v12 : FVec Ideal S256x6144 .f32) (acc : Vec Ideal S1x1x128 .f32) (l : Fin 128) :
    lanes (F := Ideal) v94 v12 acc (ix3 0 0 l)
      = acc (ix3 0 0 l) + (if l.val = 0 then ∑ y : S1x256x6144.Idx, v94 (ix2 (y 1) (y 2))
          else if l.val = 1 then ∑ y : S1x256x6144.Idx, v12 (ix2 (y 1) (y 2)) else 0) := by
  unfold lanes
  rw [shapeCast_self, addf_apply]
  show acc (ix3 0 0 l)
      + Scalar.select (IntOp.cmpi .eq (iota .tc S1x1x128 32 [2] iota_S1x1x128_d2_w32 (ix3 0 0 l)) 0#32) (total (F := Ideal) v94)
          (Scalar.select (IntOp.cmpi .eq (iota .tc S1x1x128 32 [2] iota_S1x1x128_d2_w32 (ix3 0 0 l)) 1#32) (total (F := Ideal) v12)
            (Scalar.ofBits (F := Ideal) .f32 0x00000000#32)) = _
  rw [iota_single_apply]
  show acc (ix3 0 0 l)
      + Scalar.select (IntOp.cmpi .eq (BitVec.ofNat 32 l.val) (BitVec.ofNat 32 0)) (total (F := Ideal) v94)
          (Scalar.select (IntOp.cmpi .eq (BitVec.ofNat 32 l.val) (BitVec.ofNat 32 1)) (total (F := Ideal) v12)
            (Scalar.ofBits (F := Ideal) .f32 0x00000000#32)) = _
  have hl := l.isLt
  rw [select_of_iff (eq_coord l.val 0 (by omega) (by decide)), select_of_iff (eq_coord l.val 1 (by omega) (by decide)),
    zeroWord_eq, total_eq, total_eq]

section Weighted
variable (x t : Vec Ideal S1x256x6144 .f32) (mk : Vec Ideal S1x256x6144 .i32)

/-- The weighted vector at (r, c) is the cell's weight. -/
theorem wvec_apply (r : Fin 256) (c : Fin 6144) :
    wvec (F := Ideal) (k0_pay2 x) (k0_pay4 mk) (k0_pay5 t) (k0_pay6 t) (k0_pay8 (k0_pay4 mk) (k0_pay7 mk) 255#32)
      (k0_pay9 (k0_pay4 mk) (k0_pay5 t)) (Scalar.ofBits .f32 0x40800000#32) (ix2 r c) = WtB x t mk r c := by
  show FloatOps.mulf
      (FloatOps.addf
        (FloatOps.subf (FloatOps.maximumf (k0_pay2 (F := Ideal) x (ix2 r c)) zero)
          (FloatOps.mulf (k0_pay2 (F := Ideal) x (ix2 r c))
            (FloatOps.addf (k0_pay6 (F := Ideal) t (ix2 r c))
              (FloatOps.mulf fortieth
                (FloatOps.addf (k0_pay9 (F := Ideal) (k0_pay4 mk) (k0_pay5 t) (ix2 r c))
                  (FloatOps.mulf (k0_pay5 (F := Ideal) t (ix2 r c))
                    (FloatOps.subf four (k0_pay8 (F := Ideal) (k0_pay4 mk) (k0_pay7 mk) 255#32 (ix2 r c)))))))))
        (FloatOps.log1p (FloatOps.exp (FloatOps.subf zero (FloatOps.absf (k0_pay2 (F := Ideal) x (ix2 r c)))))))
      (k0_pay4 (F := Ideal) mk (ix2 r c)) = _
  rw [x_apply, base_apply, addm_apply, p_apply, cnt_apply, m_apply, Ideal.subf_zero_eq_hostNegf, Ideal.hostNegf_def]
  rfl

end Weighted

variable {F : FTy → Type} [FloatOps F]

/-- What the body stores into the accumulator, from the three loaded blocks and the accumulator loaded. -/
def upd (x t : Vec F S1x256x6144 .f32) (mk : Vec F S1x256x6144 .i32) (acc : Vec F S1x1x128 .f32) : FVec F S1x1x128 .f32 :=
  k0_pay10 (k0_pay2 x) (k0_pay4 mk) (k0_pay5 t) (k0_pay6 t) (k0_pay8 (k0_pay4 mk) (k0_pay7 mk) 255#32)
    (k0_pay9 (k0_pay4 mk) (k0_pay5 t)) (Scalar.ofBits .f32 0x40800000#32) acc

/-- At the ideal values, lane by lane: the accumulator plus the batch's numerator (lane 0), denominator (lane 1), zero. -/
theorem upd_lane (x t : Vec Ideal S1x256x6144 .f32) (mk : Vec Ideal S1x256x6144 .i32) (acc : Vec Ideal S1x1x128 .f32)
    (l : Fin 128) :
    upd (F := Ideal) x t mk acc (ix3 0 0 l)
      = acc (ix3 0 0 l) + (if l.val = 0 then numB x t mk else if l.val = 1 then denB mk else 0) := by
  have hnum : (∑ y : S1x256x6144.Idx,
      wvec (F := Ideal) (k0_pay2 x) (k0_pay4 mk) (k0_pay5 t) (k0_pay6 t) (k0_pay8 (k0_pay4 mk) (k0_pay7 mk) 255#32)
        (k0_pay9 (k0_pay4 mk) (k0_pay5 t)) (Scalar.ofBits .f32 0x40800000#32) (ix2 (y 1) (y 2))) = numB x t mk :=
    Finset.sum_congr rfl fun y _ => wvec_apply x t mk (y 1) (y 2)
  have hden : (∑ y : S1x256x6144.Idx, k0_pay4 (F := Ideal) mk (ix2 (y 1) (y 2))) = denB mk :=
    Finset.sum_congr rfl fun y _ => (m_apply mk (y 1) (y 2)).trans (congrArg (fun z => mval (mk z)) (idx_eq y))
  unfold upd
  rw [k0_pay10_eq, lanes_apply, hnum, hden]

end Cert.KernelPoint

end
-- ==== Proof.SpecBridge.lean ====
/-
  The two coordinate systems agree: a batch's cell (row, flat column 24·j + l) is the arrays' cell (batch, row, j, l),
  its four neighbours correspond (a column step is 24 flat columns), and the arrays' index set is the disjoint union of
  the sixteen batches' blocks.  So the total sums are the sums of the batches' sums.
-/
import proofs.«421200_j29025388986507_3_alg».proof.Proof.Spec

noncomputable section

open scoped BigOperators

namespace Cert.Spec

open Idealize.ShloMosaic Idealize.ShloMosaic.ValueIdx

variable (X T : S4.Idx → EReal) (Mk : S4.Idx → BitVec 32)

/-! ## A flat column's column and label -/

/-- The column a flat column lies in. -/
def colOf (c : Fin 6144) : Fin 256 := ⟨c.val / 24, by have h : c.val < 6144 := c.isLt; omega⟩
/-- The label a flat column carries. -/
def labOf (c : Fin 6144) : Fin 24 := ⟨c.val % 24, Nat.mod_lt _ (by decide)⟩

section Neighbours
variable (A : Fin 16 → Fin 256 → Fin 256 → Fin 24 → EReal) (b : Fin 16)

/-- One column on: 24 flat columns on keeps the label and raises the column by one; the two range tests agree. -/
theorem fColNext_flat (r : Fin 256) (c : Fin 6144) :
    fColNext (fun r c => A b r (colOf c) (labOf c)) r c = colNext A b r (colOf c) (labOf c) := by
  have hc : c.val < 6144 := c.isLt
  unfold fColNext colNext
  by_cases h : c.val + 24 < 6144
  · have h' : (colOf c).val + 1 < 256 := by show c.val / 24 + 1 < 256; omega
    have e1 : colOf ⟨c.val + 24, h⟩ = ⟨(colOf c).val + 1, h'⟩ :=
      Fin.ext (by show (c.val + 24) / 24 = c.val / 24 + 1; omega)
    have e2 : labOf ⟨c.val + 24, h⟩ = labOf c :=
      Fin.ext (by show (c.val + 24) % 24 = c.val % 24; omega)
    rw [dif_pos h, dif_pos h']
    show A b r (colOf ⟨c.val + 24, h⟩) (labOf ⟨c.val + 24, h⟩) = _
    rw [e1, e2]
  · have h' : ¬ (colOf c).val + 1 < 256 := by show ¬ c.val / 24 + 1 < 256; omega
    rw [dif_neg h, dif_neg h']

/-- One column back: 24 flat columns back keeps the label and lowers the column by one; the two range tests agree. -/
theorem fColPrev_flat (r : Fin 256) (c : Fin 6144) :
    fColPrev (fun r c => A b r (colOf c) (labOf c)) r c = colPrev A b r (colOf c) (labOf c) := by
  have hc : c.val < 6144 := c.isLt
  unfold fColPrev colPrev
  by_cases h : 24 ≤ c.val
  · have h' : 1 ≤ (colOf c).val := by show 1 ≤ c.val / 24; omega
    have hlt : c.val - 24 < 6144 := by omega
    have hlt' : (colOf c).val - 1 < 256 := by have := (colOf c).isLt; omega
    have e1 : colOf ⟨c.val - 24, hlt⟩ = ⟨(colOf c).val - 1, hlt'⟩ :=
      Fin.ext (by show (c.val - 24) / 24 = c.val / 24 - 1; omega)
    have e2 : labOf ⟨c.val - 24, hlt⟩ = labOf c :=
      Fin.ext (by show (c.val - 24) % 24 = c.val % 24; omega)
    rw [dif_pos h, dif_pos h']
    show A b r (colOf ⟨c.val - 24, hlt⟩) (labOf ⟨c.val - 24, hlt⟩) = _
    rw [e1, e2]
  · have h' : ¬ 1 ≤ (colOf c).val := by show ¬ 1 ≤ c.val / 24; omega
    rw [dif_neg h, dif_neg h']

/-- The four neighbours of a cell are the same cells in either coordinate system (a row step does not touch the
    flat column). -/
theorem fnbSum_flat (r : Fin 256) (c : Fin 6144) :
    fnbSum (fun r c => A b r (colOf c) (labOf c)) r c = nbSum A b r (colOf c) (labOf c) := by
  unfold fnbSum nbSum
  rw [fColNext_flat, fColPrev_flat]
  rfl

end Neighbours

/-- A batch's weight in flat coordinates is the arrays' weight at the cell the block index addresses. -/
theorem WtB_batch (b : Fin 16) (y : S3.Idx) :
    WtB (batchOf X b) (batchOf T b) (batchOf Mk b) (y 1) (y 2) = WtI X T Mk (unflat b y) := by
  have hm := fnbSum_flat (Mv Mk) b (y 1) (y 2)
  have hp := fnbSum_flat (Pv T) b (y 1) (y 2)
  show W _ _ _ _ (fnbSum (fun r c => Mv Mk b r (colOf c) (labOf c)) (y 1) (y 2))
      (fnbSum (fun r c => Pv T b r (colOf c) (labOf c)) (y 1) (y 2)) = _
  rw [hm, hp]
  rfl

/-- A batch's m in flat coordinates is the arrays' m at that cell. -/
theorem mval_batch (b : Fin 16) (y : S3.Idx) : mval (batchOf Mk b y) = MvI Mk (unflat b y) := by
  exact congrArg (fun i => mval (Mk i)) (eq_ix4 (unflat b y))

/-- A cell of the arrays lies in exactly one batch, at the flat column 24 · column + label: the change of coordinates
    is a bijection from (batch, block index) to the arrays' indices. -/
def unflatEquiv : Fin 16 × S3.Idx ≃ S4.Idx where
  toFun p := unflat p.1 p.2
  invFun i := (i 0, ix3 (0 : Fin 1) (i 1)
    (⟨24 * (i 2).val + (i 3).val, by
      have h2 : (i 2).val < 256 := (i 2).isLt
      have h3 : (i 3).val < 24 := (i 3).isLt
      omega⟩ : Fin 6144))
  left_inv p := by
    obtain ⟨b, y⟩ := p
    refine Prod.ext rfl ?_
    funext a
    match a with
    | ⟨0, _⟩ => exact Subsingleton.elim (α := Fin 1) _ _
    | ⟨1, _⟩ => rfl
    | ⟨2, _⟩ => exact Fin.ext (Nat.div_add_mod (y 2).val 24)
  right_inv i := by
    have h3 : (i 3).val < 24 := (i 3).isLt
    funext a
    match a with
    | ⟨0, _⟩ => rfl
    | ⟨1, _⟩ => rfl
    | ⟨2, _⟩ => exact Fin.ext (by show (24 * (i 2).val + (i 3).val) / 24 = (i 2).val; omega)
    | ⟨3, _⟩ => exact Fin.ext (by show (24 * (i 2).val + (i 3).val) % 24 = (i 3).val; omega)

/-- The arrays' cells are the sixteen batches' cells, each once. -/
theorem sum_unflat (f : S4.Idx → EReal) : ∑ i : S4.Idx, f i = ∑ b : Fin 16, ∑ y : S3.Idx, f (unflat b y) := by
  rw [← Equiv.sum_comp unflatEquiv f, Fintype.sum_prod_type]
  rfl

/-- The numerator is the sum of the batches' numerators. -/
theorem numS_eq : numS X T Mk = ∑ b : Fin 16, numB (batchOf X b) (batchOf T b) (batchOf Mk b) := by
  unfold numS numB
  rw [sum_unflat]
  exact Finset.sum_congr rfl fun b _ => Finset.sum_congr rfl fun y _ => (WtB_batch X T Mk b y).symm

/-- The denominator is the sum of the batches' denominators. -/
theorem denS_eq : denS Mk = ∑ b : Fin 16, denB (batchOf Mk b) := by
  unfold denS denB
  rw [sum_unflat]
  exact Finset.sum_congr rfl fun b _ => Finset.sum_congr rfl fun y _ => (mval_batch Mk b y).symm

end Cert.Spec

end
-- ==== Proof.KernelRun.lean ====
/-
  The kernel's run, read as values.  Each grid point adds one batch's contribution to a carried accumulator; the
  accumulator restarts from zeros at every eighth point and is copied to the output array at the last point of each
  group of eight.  So row `o` of the output array is the accumulator after the eight batches 8·o … 8·o + 7, each of
  which is a batch of the argument arrays re-read in (row, flat column) coordinates; the lines after the region sum
  lanes 0 and 1 over the two rows and divide.  At the ideal values a lane of the accumulator is a sum in the extended
  reals, so the two lanes over the two rows are the sixteen batches' numerators and denominators: the specification's
  two total sums.
-/
import proofs.«421200_j29025388986507_3_alg».proof.Proof.Gen.KernelIdeal.Frame
import proofs.«421200_j29025388986507_3_alg».proof.Proof.KernelPoint
import proofs.«421200_j29025388986507_3_alg».proof.Proof.SpecBridge
import Idealize.ShloMosaic.Lib.Pipeline.Value
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelRun

open Cert.KernelIdeal Cert.KernelIdeal.Gen Cert.KernelPoint

variable {F : FTy → Type} [FloatOps F]

theorem hz3 : (![0, 0, 0] : Fin 3 → Nat) = fun _ => 0 := funext fun a => by fin_cases a <;> rfl

/-! ## What one point leaves in the accumulator -/

/-- At a point that neither resets nor writes out, the body leaves the accumulator at `upd` of the three blocks and of
    what it found there. -/
theorem pieceB (c : Dev nD) (i : grid0.Coords) (a2 : Memref sig .tc .vmem S1x256x6144 .f32) (h2 : a2.IsWhole)
    (a3 : Memref sig .tc .vmem S1x256x6144 .f32) (h3 : a3.IsWhole) (a4 : Memref sig .tc .vmem S1x256x6144 .i32) (h4 : a4.IsWhole)
    (a5 : Memref sig .tc .vmem S1x1x128 .f32) (h5 : a5.IsWhole) (a6 : Memref sig .tc .vmem S1x1x128 .f32) (h6 : a6.IsWhole)
    (hc0 : ¬cond0_0 i) (hc1 : ¬cond0_1 i)
    (x0 x1 : Vec F S1x256x6144 .f32) (x2 : Vec F S1x256x6144 .i32) (xs0 : Vec F S1x1x128 .f32) :
    sout0_B_0 c i a2 h2 a3 h3 a4 h4 a5 h5 a6 h6 hc0 hc1 x0 x1 x2 xs0 = upd x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz3]
  simp only [View.readAt_eq_ld, h2.read_unread, h3.read_unread, h4.read_unread, h6.read_unread,
    View.ld_unit_zero (S := S1x256x6144) hz3, View.ld_unit_zero (S := S1x1x128) hz3,
    View.readCov_unit_zero (S := S1x1x128) _ hz3]
  rfl

/-- At a batch group's first point the body first stores zeros, so it leaves `upd` of the blocks and of zeros. -/
theorem pieceA (c : Dev nD) (i : grid0.Coords) (a2 : Memref sig .tc .vmem S1x256x6144 .f32) (h2 : a2.IsWhole)
    (a3 : Memref sig .tc .vmem S1x256x6144 .f32) (h3 : a3.IsWhole) (a4 : Memref sig .tc .vmem S1x256x6144 .i32) (h4 : a4.IsWhole)
    (a5 : Memref sig .tc .vmem S1x1x128 .f32) (h5 : a5.IsWhole) (a6 : Memref sig .tc .vmem S1x1x128 .f32) (h6 : a6.IsWhole)
    (hc0 : cond0_0 i) (hc1 : ¬cond0_1 i)
    (x0 x1 : Vec F S1x256x6144 .f32) (x2 : Vec F S1x256x6144 .i32) :
    sout0_A_0 c i a2 h2 a3 h3 a4 h4 a5 h5 a6 h6 hc0 hc1 x0 x1 x2 = upd x0 x1 x2 k0_pay1 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1x128) hz3]
  simp only [View.readAt_eq_ld, h2.read_unread, h3.read_unread, h4.read_unread, h6.read_unread,
    View.ld_unit_zero (S := S1x256x6144) hz3, View.ld_unit_zero (S := S1x1x128) hz3,
    View.readCov_unit_zero (S := S1x1x128) _ hz3]
  rfl

/-- At a group's last point the accumulator is updated the same way … -/
theorem pieceC (c : Dev nD) (i : grid0.Coords) (a2 : Memref sig .tc .vmem S1x256x6144 .f32) (h2 : a2.IsWhole)
    (a3 : Memref sig .tc .vmem S1x256x6144 .f32) (h3 : a3.IsWhole) (a4 : Memref sig .tc .vmem S1x256x6144 .i32) (h4 : a4.IsWhole)
    (a5 : Memref sig .tc .vmem S1x1x128 .f32) (h5 : a5.IsWhole) (a6 : Memref sig .tc .vmem S1x1x128 .f32) (h6 : a6.IsWhole)
    (hc0 : ¬cond0_0 i) (hc1 : cond0_1 i)
    (x0 x1 : Vec F S1x256x6144 .f32) (x2 : Vec F S1x256x6144 .i32) (xs0 : Vec F S1x1x128 .f32) :
    sout0_C_0 c i a2 h2 a3 h3 a4 h4 a5 h5 a6 h6 hc0 hc1 x0 x1 x2 xs0 = upd x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz3]
  simp only [View.readAt_eq_ld, h2.read_unread, h3.read_unread, h4.read_unread, h6.read_unread,
    View.ld_unit_zero (S := S1x256x6144) hz3, View.ld_unit_zero (S := S1x1x128) hz3,
    View.readCov_unit_zero (S := S1x1x128) _ hz3]
  rfl

/-- … and copied to the output block. -/
theorem outC (c : Dev nD) (i : grid0.Coords) (a2 : Memref sig .tc .vmem S1x256x6144 .f32) (h2 : a2.IsWhole)
    (a3 : Memref sig .tc .vmem S1x256x6144 .f32) (h3 : a3.IsWhole) (a4 : Memref sig .tc .vmem S1x256x6144 .i32) (h4 : a4.IsWhole)
    (a5 : Memref sig .tc .vmem S1x1x128 .f32) (h5 : a5.IsWhole) (a6 : Memref sig .tc .vmem S1x1x128 .f32) (h6 : a6.IsWhole)
    (hc0 : ¬cond0_0 i) (hc1 : cond0_1 i)
    (x0 x1 : Vec F S1x256x6144 .f32) (x2 : Vec F S1x256x6144 .i32) (xs0 : Vec F S1x1x128 .f32) :
    out0_C_3 c i a2 h2 a3 h3 a4 h4 a5 h5 a6 h6 hc0 hc1 x0 x1 x2 xs0 = upd x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3]
  simp only [View.readAt_eq_ld, h2.read_unread, h3.read_unread, h4.read_unread, h6.read_unread,
    View.ld_unit_zero (S := S1x256x6144) hz3, View.ld_unit_zero (S := S1x1x128) hz3,
    View.readCov_unit_zero (S := S1x1x128) _ hz3]
  rfl

/-! ## The accumulator point by point -/

variable (m : (ℓ : Loc nD τ sig) → Buf (Elt F) ℓ) (ρ : Dev nD → PrngReg)

/-- The three input blocks at a point, at their literal types. -/
abbrev xb (c : Dev nD) (t : Fin cfg0.N) : Vec F S1x256x6144 .f32 := iblk m c 0 t
abbrev tb (c : Dev nD) (t : Fin cfg0.N) : Vec F S1x256x6144 .f32 := iblk m c 1 t
abbrev kb (c : Dev nD) (t : Fin cfg0.N) : Vec F S1x256x6144 .i32 := iblk m c 2 t

/-- The accumulator after point `n`: restarted from zeros at every eighth point, else updated from the point before. -/
def acc (c : Dev nD) : (n : ℕ) → n < cfg0.N → Vec F S1x1x128 .f32
  | 0, h => upd (xb m c ⟨0, h⟩) (tb m c ⟨0, h⟩) (kb m c ⟨0, h⟩) k0_pay1
  | n + 1, h =>
    if (n + 1) % 8 = 0 then upd (xb m c ⟨n + 1, h⟩) (tb m c ⟨n + 1, h⟩) (kb m c ⟨n + 1, h⟩) k0_pay1
    else upd (xb m c ⟨n + 1, h⟩) (tb m c ⟨n + 1, h⟩) (kb m c ⟨n + 1, h⟩) (acc c n (Nat.lt_of_succ_lt h))

/-- The run's record of the accumulator is `acc`. -/
theorem outsAt_snd (c : Dev nD) : ∀ (n : ℕ) (h : n < cfg0.N), (outsAt0 m c n h).2 = acc m c n h
  | 0, h => by
    rw [outsAt0_A m c ⟨0, h⟩ rfl (by show ¬(0 % 8 = 7); decide)]
    dsimp only
    exact pieceA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) scM0_0 (Memref.isWhole_whole _) _ _ (iblk m c 0 ⟨0, h⟩) (iblk m c 1 ⟨0, h⟩) (iblk m c 2 ⟨0, h⟩)
  | n + 1, h => by
    have hN : cfg0.N = 16 := N_0
    by_cases h0 : (n + 1) % 8 = 0
    · have h1 : ¬(n + 1) % 8 = 7 := by omega
      rw [outsAt0_A m c ⟨n + 1, h⟩ h0 h1]
      dsimp only
      rw [acc, if_pos h0]
      exact pieceA c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
    · by_cases h1 : (n + 1) % 8 = 7
      · rw [outsAt0_C m c ⟨n + 1, h⟩ h0 h1]
        dsimp only
        rw [acc, if_neg h0, ← outsAt_snd c n (Nat.lt_of_succ_lt h)]
        exact pieceC c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
          (outsAt0 m c n (Nat.lt_of_succ_lt h)).2
      · rw [outsAt0_B m c ⟨n + 1, h⟩ h0 h1]
        dsimp only
        rw [acc, if_neg h0, ← outsAt_snd c n (Nat.lt_of_succ_lt h)]
        exact pieceB c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
          (outsAt0 m c n (Nat.lt_of_succ_lt h)).2

/-! ## The blocks are the batches of the argument arrays -/

/-- The three inputs' index maps send point `t` to batch `t`; the output's sends it to group `t / 8`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

theorem lt16 (t : Fin cfg0.N) : t.val < 16 := lt_of_lt_of_eq t.isLt (show cfg0.N = 16 from N_0)

/-- The region finds each reshaped array as the row-major re-reading of its argument. -/
theorem V_v0 (c : Dev nD) : (V m c main_v0 : S16x256x6144.Idx → Elt F .f32)
    = shapeCast S16x256x6144 (m ((c : Thread nD τ).loc main_arg0)) shapeCasts_S16x256x256x24_S16x256x6144 := by
  show StableHlo.after hostOps0 (fun b => m (c, b)) (Proc.devRef .tc main_v0) = _
  after_results
  rfl
theorem V_v1 (c : Dev nD) : (V m c main_v1 : S16x256x6144.Idx → Elt F .f32)
    = shapeCast S16x256x6144 (m ((c : Thread nD τ).loc main_arg1)) shapeCasts_S16x256x256x24_S16x256x6144 := by
  show StableHlo.after hostOps0 (fun b => m (c, b)) (Proc.devRef .tc main_v1) = _
  after_results
  rfl
theorem V_v2 (c : Dev nD) : (V m c main_v2 : S16x256x6144.Idx → Elt F .i32)
    = shapeCast S16x256x6144 (m ((c : Thread nD τ).loc main_arg2)) shapeCasts_S16x256x256x24_S16x256x6144 := by
  show StableHlo.after hostOps0 (fun b => m (c, b)) (Proc.devRef .tc main_v2) = _
  after_results
  rfl

/-- A reshaped array at (batch, row, flat column) is the argument at (batch, row, column, label). -/
theorem reshape_apply {α : Type} (A : S16x256x256x24.Idx → α) (k : S16x256x6144.Idx) (b : Fin 16) (y : S1x256x6144.Idx)
    (h0 : (k 0).val = b.val) (h1 : (k 1).val = (y 1).val) (h2 : (k 2).val = (y 2).val) :
    shapeCast S16x256x6144 A shapeCasts_S16x256x256x24_S16x256x6144 k = A (Cert.Spec.unflat b y) := by
  refine shapeCast_apply A _ k _ ?_
  rw [Shape.rowMajor_val_four, Shape.rowMajor_val_three]
  show ((b.val * 256 + (y 1).val) * 256 + (y 2).val / 24) * 24 + (y 2).val % 24
    = ((k 0).val * 256 + (k 1).val) * 6144 + (k 2).val
  rw [h0, h1, h2]
  have := (y 2).isLt
  omega

/-- So the logits' block at point `t` is batch `t` of the logits, -/
theorem xb_eq (c : Dev nD) (t : Fin cfg0.N) :
    xb m c t = Cert.Spec.batchOf (m ((c : Thread nD τ).loc main_arg0)) ⟨t.val, lt16 t⟩ := by
  funext y
  obtain ⟨e0, e1, e2, -⟩ := idx_facts t
  show V m c main_v0 (((cfg0.win 0).blk t).view.emb y) = _
  rw [V_v0]
  have hy0 : (y 0).val < 1 := (y 0).isLt
  exact reshape_apply _ _ ⟨t.val, lt16 t⟩ y
    (by show win0_0.index t (0 : Fin 3) * 1 + 1 * (y 0).val = t.val; omega)
    (by show win0_0.index t (1 : Fin 3) * 256 + 1 * (y 1).val = (y 1).val; omega)
    (by show win0_0.index t (2 : Fin 3) * 6144 + 1 * (y 2).val = (y 2).val; omega)

/-- the labels' block batch `t` of the labels, -/
theorem tb_eq (c : Dev nD) (t : Fin cfg0.N) :
    tb m c t = Cert.Spec.batchOf (m ((c : Thread nD τ).loc main_arg1)) ⟨t.val, lt16 t⟩ := by
  funext y
  obtain ⟨-, -, -, e0, e1, e2, -⟩ := idx_facts t
  show V m c main_v1 (((cfg0.win 1).blk t).view.emb y) = _
  rw [V_v1]
  have hy0 : (y 0).val < 1 := (y 0).isLt
  exact reshape_apply _ _ ⟨t.val, lt16 t⟩ y
    (by show win0_1.index t (0 : Fin 3) * 1 + 1 * (y 0).val = t.val; omega)
    (by show win0_1.index t (1 : Fin 3) * 256 + 1 * (y 1).val = (y 1).val; omega)
    (by show win0_1.index t (2 : Fin 3) * 6144 + 1 * (y 2).val = (y 2).val; omega)

/-- and the mask's block batch `t` of the mask. -/
theorem kb_eq (c : Dev nD) (t : Fin cfg0.N) :
    kb m c t = Cert.Spec.batchOf (m ((c : Thread nD τ).loc main_arg2)) ⟨t.val, lt16 t⟩ := by
  funext y
  obtain ⟨-, -, -, -, -, -, e0, e1, e2, -⟩ := idx_facts t
  show V m c main_v2 (((cfg0.win 2).blk t).view.emb y) = _
  rw [V_v2]
  have hy0 : (y 0).val < 1 := (y 0).isLt
  exact reshape_apply _ _ ⟨t.val, lt16 t⟩ y
    (by show win0_2.index t (0 : Fin 3) * 1 + 1 * (y 0).val = t.val; omega)
    (by show win0_2.index t (1 : Fin 3) * 256 + 1 * (y 1).val = (y 1).val; omega)
    (by show win0_2.index t (2 : Fin 3) * 6144 + 1 * (y 2).val = (y 2).val; omega)

/-! ## The output array -/

/-- At a group's last point the output block is the accumulator. -/
theorem outsAt_fst (c : Dev nD) (t : Fin cfg0.N) (h1 : t.val % 8 = 7) :
    (outsAt0 m c t.val t.isLt).1 = acc m c t.val t.isLt := by
  have h0 : ¬t.val % 8 = 0 := by omega
  rw [← outsAt_snd m c t.val t.isLt, outsAt0_C m c t h0 h1]
  dsimp only
  exact (outC c (grid0.coords t) (ms0_0 t) (hs0_0 t) (ms0_1 t) (hs0_1 t) (ms0_2 t) (hs0_2 t) (ms0_3 t) (hs0_3 t) scM0_0
      (Memref.isWhole_whole _) _ _ (iblk m c 0 t) (iblk m c 1 t) (iblk m c 2 t) _).trans
    (pieceC c (grid0.coords t) (ms0_0 t) (hs0_0 t) (ms0_1 t) (hs0_1 t) (ms0_2 t) (hs0_2 t) (ms0_3 t) (hs0_3 t) scM0_0
      (Memref.isWhole_whole _) _ _ (iblk m c 0 t) (iblk m c 1 t) (iblk m c 2 t) _).symm

theorem acc_congr (c : Dev nD) {n n' : ℕ} (e : n = n') (h : n < cfg0.N) (h' : n' < cfg0.N) :
    acc m c n h = acc m c n' h' := by
  subst e; rfl

/-- The accumulator lane an entry of the output array comes from. -/
def laneOf (i : S2x1x128.Idx) : S1x1x128.Idx :=
  Idealize.ShloMosaic.ValueIdx.ix3 (n0 := 1) (n1 := 1) (n2 := 128) 0 ⟨(i 1).val, (i 1).isLt⟩ ⟨(i 2).val, (i 2).isLt⟩

/-- The output array: row `o` is the accumulator after the last point of group `o`. -/
def outArr (c : Dev nD) : Buf (Elt F) ((c : Thread nD τ).loc main_v3) := fun i =>
  acc m c (8 * (i 0).val + 7) (by have h : (i 0).val < 2 := (i 0).isLt; rw [show cfg0.N = 16 from N_0]; omega) (laneOf i)

/-- What a writing point writes back is its block of that array. -/
theorem flushed_eq (c : Dev nD) (t : Fin cfg0.N) (hf : (cfg0.win 3).flush t = true) :
    (dats m 0 c).flushed 3 t = ((cfg0.win 3).blk t).view.read (Elt F) (outArr m c) := by
  have h7 : t.val % 8 = 7 := (flush0_3 t).mp hf
  show (cfg0.win 3).cut (grid0.coords t) ((dats m 0 c).after 3 t) = _
  rw [after0_3, outsAt_fst m c t h7]
  funext y
  show acc m c t.val t.isLt y = outArr m c (((cfg0.win 3).blk t).view.emb y)
  obtain ⟨-, -, -, -, -, -, -, -, -, e0, e1, e2⟩ := idx_facts t
  have hy0 : (y 0).val < 1 := (y 0).isLt
  have hy1 : (y 1).val < 1 := (y 1).isLt
  have k0 : ((((cfg0.win 3).blk t).view.emb y) 0).val = win0_3.index t (0 : Fin 3) * 1 + 1 * (y 0).val := rfl
  have k1 : ((((cfg0.win 3).blk t).view.emb y) 1).val = win0_3.index t (1 : Fin 3) * 1 + 1 * (y 1).val := rfl
  have k2 : ((((cfg0.win 3).blk t).view.emb y) 2).val = win0_3.index t (2 : Fin 3) * 128 + 1 * (y 2).val := rfl
  unfold outArr
  rw [acc_congr m c (n := 8 * ((((cfg0.win 3).blk t).view.emb y) 0).val + 7) (n' := t.val) (by rw [k0]; omega) _ t.isLt]
  congr 1
  funext a
  apply Fin.ext
  match a with
  | ⟨0, _⟩ => show (y 0).val = (0 : ℕ); omega
  | ⟨1, _⟩ => show (y 1).val = ((((cfg0.win 3).blk t).view.emb y) 1).val; rw [k1]; omega
  | ⟨2, _⟩ => show (y 2).val = ((((cfg0.win 3).blk t).view.emb y) 2).val; rw [k2]; omega

/-- Every entry of the array is in the block some writing point writes. -/
theorem covered (c : Dev nD) (i : S2x1x128.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 128 := (i 2).isLt
  obtain ⟨t, ht⟩ : ∃ t : Fin cfg0.N, t.val = 8 * (i 0).val + 7 :=
    ⟨⟨8 * (i 0).val + 7, by rw [show cfg0.N = 16 from N_0]; omega⟩, rfl⟩
  refine ⟨t, (flush0_3 t).mpr (by omega), ?_⟩
  obtain ⟨-, -, -, -, -, -, -, -, -, e0, e1, e2⟩ := idx_facts t
  show i ∈ ((View.whole main_v3).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1 ≤ (i 1).val ∧ (i 1).val < win0_3.index t (1 : Fin 3) * 1 + 1
    omega
  | ⟨2, _⟩ =>
    show win0_3.index t (2 : Fin 3) * 128 ≤ (i 2).val ∧ (i 2).val < win0_3.index t (2 : Fin 3) * 128 + 128
    omega

/-- So the output array ends as `outArr`. -/
theorem final (c : Dev nD) : (dats m 0 c).arrAt 3 cfg0.N = outArr m c :=
  (dats m 0 c).arrAt_eq_of_cover 3 (outArr m c) (flushed_eq m c) (covered c)

/-! ## The lines after the region -/

/-- The result from the output array: lane 0 and lane 1 summed over the two groups, and their quotient. -/
def tail (out : S2x1x128.Idx → Elt F .f32) : S_.Idx → Elt F .f32 :=
  Host.divf
    (Host.reduceAdd (shapeCast S2 (extractStridedSlice S2x1x1 ![0, 0, 0] out slices_S2x1x128_S2x1x1_0_0_0) shapeCasts_S2x1x1_S2)
      (constant S_ .f32 0x00000000#32) reducesTo_S2_S_d0 h_S_)
    (Host.reduceAdd (shapeCast S2 (extractStridedSlice S2x1x1 ![0, 0, 1] out slices_S2x1x128_S2x1x1_0_0_1) shapeCasts_S2x1x1_S2)
      (constant S_ .f32 0x00000000#32) reducesTo_S2_S_d0 h_S_)

theorem tail_eq (c : Dev nD) :
    Pipeline.afterTail₀ cfgs (dats m) 0 (V0 m) [hostOps1] c main_v10 = tail (outArr m c) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v3)
      = outArr m c := (Pipeline.withArrays_arr spec0 launch0.win.arr_inj c _ _ 3).trans (final m c)
  exact congrArg tail hw

/-! ## The run, read -/

/-- Every weakly fair execution ends with the result at `tail` of the output array and the arguments as they were. -/
theorem run : θ_run defs (onTc (τ := τ) (main (F := F))) ⟨m, fun _ => 0, ρ⟩ fun r => ∀ c : Dev nD,
      r.2.mem ((c.tc : Thread nD τ).loc main_v10) = tail (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-! ## At the ideal values: the result is the specification's -/

section AtIdeal

open Cert.Spec Idealize.ShloMosaic.ValueIdx
open scoped BigOperators

variable (X T : S4.Idx → EReal) (Mk : S4.Idx → BitVec 32)

/-- One batch's numerator and denominator by the batch's number (zero past the last batch). -/
def nBn (n : ℕ) : EReal :=
  if h : n < 16 then numB (batchOf X ⟨n, h⟩) (batchOf T ⟨n, h⟩) (batchOf Mk ⟨n, h⟩) else 0
def dBn (n : ℕ) : EReal := if h : n < 16 then denB (batchOf Mk ⟨n, h⟩) else 0
/-- What point `n` adds to lane `l` of the accumulator. -/
def gT (l : Fin 128) (n : ℕ) : EReal := if l.val = 0 then nBn X T Mk n else if l.val = 1 then dBn Mk n else 0

/-- Two groups of eight consecutive terms are sixteen consecutive terms. -/
theorem sum_groups (f : ℕ → EReal) :
    (0 : EReal) + ∑ o : Fin 2, ((0 : EReal) + ∑ j ∈ Finset.range 8, f (8 * o.val + j)) = ∑ n ∈ Finset.range 16, f n := by
  simp only [Fin.sum_univ_two, Finset.sum_range_succ, Finset.sum_range_zero, zero_add, Fin.val_zero, Fin.val_one,
    Nat.mul_zero, Nat.mul_one, Nat.zero_add, Nat.reduceAdd, add_assoc]

/-- A sum over a rank-1 index set is the sum over its coordinate. -/
theorem sum_idx1 {n : ℕ} (f : (⟨1, ![n]⟩ : Shape).Idx → EReal) : ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]
  rfl

variable (mI : (ℓ : Loc nD τ sig) → Buf (Elt Ideal) ℓ)

/-- The zeros a group starts from. -/
theorem zeros_lane (l : Fin 128) : (k0_pay1 (F := Ideal)) (ix3 0 0 l) = 0 := by
  unfold k0_pay1
  rw [shapeCast_self]
  exact Ideal.ofBits_zero_f32

/-- What point `n` adds to lane `l`, from its blocks. -/
theorem g_eq (c : Dev nD) (l : Fin 128) (n : ℕ) (h : n < cfg0.N) :
    (if l.val = 0 then numB (xb mI c ⟨n, h⟩) (tb mI c ⟨n, h⟩) (kb mI c ⟨n, h⟩)
      else if l.val = 1 then denB (kb mI c ⟨n, h⟩) else 0)
    = gT (mI ((c : Thread nD τ).loc main_arg0)) (mI ((c : Thread nD τ).loc main_arg1)) (mI ((c : Thread nD τ).loc main_arg2)) l n := by
  rw [xb_eq, tb_eq, kb_eq]
  unfold gT nBn dBn
  rw [dif_pos (lt16 ⟨n, h⟩), dif_pos (lt16 ⟨n, h⟩)]

/-- Lane `l` of the accumulator after point `n`: the terms of the points since the group's first. -/
theorem acc_lane (c : Dev nD) (l : Fin 128) : ∀ (n : ℕ) (h : n < cfg0.N),
    acc mI c n h (ix3 0 0 l)
      = 0 + ∑ j ∈ Finset.range (n % 8 + 1),
          gT (mI ((c : Thread nD τ).loc main_arg0)) (mI ((c : Thread nD τ).loc main_arg1)) (mI ((c : Thread nD τ).loc main_arg2)) l (n - n % 8 + j)
  | 0, h => by
    rw [acc, upd_lane, zeros_lane, g_eq]
    simp
  | n + 1, h => by
    rw [acc]
    split_ifs with h0
    · rw [upd_lane, zeros_lane, g_eq, h0]
      simp
    · rw [upd_lane, acc_lane c l n (Nat.lt_of_succ_lt h), g_eq]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3, add_assoc]

/-- The output array at the ideal values, as extended reals. -/
abbrev outI (c : Dev nD) : S2x1x128.Idx → EReal := outArr mI c

/-- Lane `l` of row `o` of the output array: the eight terms of group `o`. -/
theorem out_lane (c : Dev nD) (o : Fin 2) (l : Fin 128) :
    outI mI c (ix3 o 0 l)
      = 0 + ∑ j ∈ Finset.range 8,
          gT (mI ((c : Thread nD τ).loc main_arg0)) (mI ((c : Thread nD τ).loc main_arg1)) (mI ((c : Thread nD τ).loc main_arg2)) l (8 * o.val + j) := by
  have ho : o.val < 2 := o.isLt
  have hlt : 8 * o.val + 7 < cfg0.N := by rw [show cfg0.N = 16 from N_0]; omega
  have hacc : outI mI c (ix3 o 0 l) = acc mI c (8 * o.val + 7) hlt (ix3 0 0 l) := rfl
  have e1 : (8 * o.val + 7) % 8 + 1 = 8 := by omega
  have e2 : 8 * o.val + 7 - (8 * o.val + 7) % 8 = 8 * o.val := by omega
  rw [hacc, acc_lane mI c l _ hlt, e1, e2]

/-- One lane of the output array summed over the two rows by the lines after the region. -/
theorem lane_sum (out : S2x1x128.Idx → EReal) (off : Fin 3 → ℕ) (l : Fin 128) (h0 : off 0 = 0) (h1 : off 1 = 0)
    (h2 : off 2 = l.val) (hs : S2x1x128.Slices off S2x1x1) (i : S_.Idx) :
    Host.reduceAdd (F := Ideal) (shapeCast S2 (extractStridedSlice S2x1x1 off out hs) shapeCasts_S2x1x1_S2)
      (constant S_ .f32 0x00000000#32) reducesTo_S2_S_d0 h_S_ i = 0 + ∑ o : Fin 2, out (ix3 o 0 l) := by
  simp only [Host.reduceAdd, Ideal.hostReduceAdd_def]
  rw [Ideal.hostReduceAdd_total reducesTo_S2_S_d0 (fun b => b.elim0), sum_idx1]
  refine congrArg₂ (· + ·) Ideal.ofBits_zero_f32 (Finset.sum_congr rfl fun o _ => ?_)
  rw [shapeCast_apply _ shapeCasts_S2x1x1_S2 (ix1 o) (ix3 o (0 : Fin 1) (0 : Fin 1)) (by
    rw [Shape.rowMajor_val_three, Shape.rowMajor_val_one]
    show (o.val * 1 + 0) * 1 + 0 = o.val
    omega)]
  exact extractStridedSlice_apply off out hs (ix3 o (0 : Fin 1) (0 : Fin 1)) (ix3 o 0 l) (fun a => match a with
    | ⟨0, _⟩ => by show o.val = off 0 + o.val; omega
    | ⟨1, _⟩ => by show (0 : ℕ) = off 1 + 0; omega
    | ⟨2, _⟩ => by show l.val = off 2 + 0; omega)

/-- The host's quotient of two scalars is the quotient of their entries. -/
theorem divf_apply (a b : S_.Idx → Ideal .f32) (i : S_.Idx) :
    Host.divf (F := Ideal) a b i = FloatOps.hostDivf (a i) (b i) := rfl

/-- Lane 0 over the two rows is the specification's numerator, -/
theorem num_eq (c : Dev nD) :
    (0 : EReal) + ∑ o : Fin 2, outI mI c (ix3 o 0 (0 : Fin 128))
      = numS (mI ((c : Thread nD τ).loc main_arg0)) (mI ((c : Thread nD τ).loc main_arg1)) (mI ((c : Thread nD τ).loc main_arg2)) := by
  simp only [out_lane]
  rw [sum_groups, numS_eq, ← Fin.sum_univ_eq_sum_range]
  refine Finset.sum_congr rfl fun b _ => ?_
  unfold gT nBn
  rw [if_pos (show ((0 : Fin 128)).val = 0 from rfl), dif_pos b.isLt]

/-- and lane 1 its denominator. -/
theorem den_eq (c : Dev nD) :
    (0 : EReal) + ∑ o : Fin 2, outI mI c (ix3 o 0 (1 : Fin 128))
      = denS (mI ((c : Thread nD τ).loc main_arg2)) := by
  simp only [out_lane]
  rw [sum_groups, denS_eq, ← Fin.sum_univ_eq_sum_range]
  refine Finset.sum_congr rfl fun b _ => ?_
  unfold gT dBn
  rw [if_neg (show ¬((1 : Fin 128)).val = 0 by decide), if_pos (show ((1 : Fin 128)).val = 1 from rfl), dif_pos b.isLt]

/-- The kernel's result is the specification's. -/
theorem result_eq (c : Dev nD) :
    tail (F := Ideal) (outArr mI c)
      = fun _ => Cert.Spec.result (mI ((c : Thread nD τ).loc main_arg0)) (mI ((c : Thread nD τ).loc main_arg1)) (mI ((c : Thread nD τ).loc main_arg2)) := by
  funext i
  unfold tail Cert.Spec.result
  rw [divf_apply, lane_sum (outI mI c) ![0, 0, 0] 0 rfl rfl rfl, lane_sum (outI mI c) ![0, 0, 1] 1 rfl rfl rfl,
    num_eq, den_eq]

end AtIdeal

end Cert.KernelRun
end
-- ==== Proof.lean ====
/-
  The certificate: a masked binary cross-entropy loss with neighbour-smoothed labels, computed by a kernel that streams
  one batch per grid point and accumulates (numerator, denominator) in two lanes, against the same loss written with
  whole-array operations.

  Both programs compute the specification of Proof/Spec.lean: with m = [mask = 1] and p = [label = 1], a cell's weight is
  (max x 0 − x · b + log1p (exp (−|x|))) · m for the smoothed label b, and the result is Σ weight / Σ m.  The reference
  is read one operation at a time (Proof/RefValue.lean: its zero-padded slices joined with a zero slab are the four
  neighbour reads).  The kernel's run is read point by point (Proof/KernelRun.lean: the carried accumulator is a running
  sum restarted every eight points; Proof/KernelPoint.lean: one point adds its batch's two sums, its rotations masked
  at the edges being the same four neighbour reads in (row, flat column) coordinates), and the sixteen batches' sums
  are the total sums (Proof/SpecBridge.lean).  Over the extended reals the only laws used are commutativity and
  associativity of addition and 0 + a = a, so the finiteness precondition is never opened.  The three frames are the
  runs with their value clause dropped; the idealization rewrote nothing.
-/
import proofs.«421200_j29025388986507_3_alg».proof.Defs
import proofs.«421200_j29025388986507_3_alg».proof.Proof.Gen.Kernel
import proofs.«421200_j29025388986507_3_alg».proof.Proof.Gen.Kernel.Skeleton
import proofs.«421200_j29025388986507_3_alg».proof.Proof.Gen.Kernel.Launch
import proofs.«421200_j29025388986507_3_alg».proof.Proof.Gen.Kernel.Points
import proofs.«421200_j29025388986507_3_alg».proof.Proof.Gen.Kernel.Frame
import proofs.«421200_j29025388986507_3_alg».proof.Proof.Gen.KernelIdeal
import proofs.«421200_j29025388986507_3_alg».proof.Proof.Gen.KernelIdeal.Skeleton
import proofs.«421200_j29025388986507_3_alg».proof.Proof.Gen.KernelIdeal.Launch
import proofs.«421200_j29025388986507_3_alg».proof.Proof.Gen.KernelIdeal.Points
import proofs.«421200_j29025388986507_3_alg».proof.Proof.Gen.KernelIdeal.Frame
import proofs.«421200_j29025388986507_3_alg».proof.Proof.Gen.ReferenceIdeal
import proofs.«421200_j29025388986507_3_alg».proof.Proof.Gen.Pre_finite_inputs
import proofs.«421200_j29025388986507_3_alg».proof.Proof.Gen.ReferenceIdeal.Run
import proofs.«421200_j29025388986507_3_alg».proof.Proof.Gen.ReferenceIdeal.Read
import proofs.«421200_j29025388986507_3_alg».proof.Proof.RefValue
import proofs.«421200_j29025388986507_3_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both idealized programs end at the specification's result of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelRun.result_eq m c), (h c).2⟩) (Cert.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v73_eq, Cert.RefValue.result_eq, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
